-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S512x1024 : Shape := ⟨2, ![512, 1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S512x512 .f32) (main_arg1 : FVec F S1024x512 .f32) (main_arg2 : FVec F S512x1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S512x512 : Shape := ⟨2, ![512, 512]⟩
abbrev S1024x512 : Shape := ⟨2, ![1024, 512]⟩
abbrev S512x1024 : Shape := ⟨2, ![512, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .hbm, ⟨3, _⟩ => ⟨S512x1024, .f32⟩
  | .hbm, ⟨4, _⟩ => ⟨S512x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x512.size a
  hwx0_0 : ∀ i : grid0.Coords, EltTy.bits .f32 = 32 ∨ (Rect.block (s := S512x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x512.size a
  hwx0_1 : ∀ i : grid0.Coords, EltTy.bits .f32 = 32 ∨ (Rect.block (s := S1024x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x1024.size a
  hwx0_2 : ∀ i : grid0.Coords, EltTy.bits .f32 = 32 ∨ (Rect.block (s := S512x1024) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x1024.size a
  hwx1_0 : ∀ i : grid1.Coords, EltTy.bits .f32 = 32 ∨ (Rect.block (s := S512x1024) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x1024.size a
  hwx1_1 : ∀ i : grid1.Coords, EltTy.bits .f32 = 32 ∨ (Rect.block (s := S512x1024) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S1024x512 : Shape := ⟨2, ![1024, 512]⟩
abbrev S512x1024 : Shape := ⟨2, ![512, 1024]⟩
abbrev S512x1x512 : Shape := ⟨3, ![512, 1, 512]⟩
abbrev S1x1024x512 : Shape := ⟨3, ![1, 1024, 512]⟩
abbrev S512x1024x512 : Shape := ⟨3, ![512, 1024, 512]⟩
abbrev S_ : Shape := ⟨0, ![]⟩
abbrev S512x1x1024 : Shape := ⟨3, ![512, 1, 1024]⟩
abbrev S1x512x1024 : Shape := ⟨3, ![1, 512, 1024]⟩
abbrev S512x512x1024 : Shape := ⟨3, ![512, 512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .hbm, ⟨3, _⟩ => ⟨S512x1x512, .f32⟩
  | .hbm, ⟨4, _⟩ => ⟨S1x1024x512, .f32⟩
  | .hbm, ⟨5, _⟩ => ⟨S512x1024x512, .f32⟩
  | .hbm, ⟨6, _⟩ => ⟨S512x1024x512, .f32⟩
  | .hbm, ⟨7, _⟩ => ⟨S512x1024x512, .f32⟩
  | .hbm, ⟨8, _⟩ => ⟨S_, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1x1024, .f32⟩
  | .hbm, ⟨14, _⟩ => ⟨S1x512x1024, .f32⟩
  | .hbm, ⟨15, _⟩ => ⟨S512x512x1024, .f32⟩
  | .hbm, ⟨16, _⟩ => ⟨S512x512x1024, .f32⟩
  | .hbm, ⟨17, _⟩ => ⟨S512x512x1024, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_call1_cst : Ref sig .tc := ⟨.hbm, 20, rfl⟩
abbrev main_call1_v0 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S1024x512_S1x1024x512_1_2 : S1024x512.BroadcastsInDim S1x1024x512 (![1, 2] : Fin 2 → Fin S1x1024x512.rank)
  bcast_S512x1x512_S512x1024x512_0_1_2 : S512x1x512.BroadcastsInDim S512x1024x512 (![0, 1, 2] : Fin 3 → Fin S512x1024x512.rank)
  bcast_S1x1024x512_S512x1024x512_0_1_2 : S1x1024x512.BroadcastsInDim S512x1024x512 (![0, 1, 2] : Fin 3 → Fin S512x1024x512.rank)
  reducesTo_S512x1024x512_S512x1024_d2 : S512x1024x512.ReducesTo [2] S512x1024
  h_S_ : 0 < S_.numel
  bcast_S_S512x1024 : S_.BroadcastsInDim S512x1024 (![] : Fin 0 → Fin S512x1024.rank)
  bcast_S512x1024_S512x1x1024_0_2 : S512x1024.BroadcastsInDim S512x1x1024 (![0, 2] : Fin 2 → Fin S512x1x1024.rank)
  bcast_S512x1024_S1x512x1024_1_2 : S512x1024.BroadcastsInDim S1x512x1024 (![1, 2] : Fin 2 → Fin S1x512x1024.rank)
  bcast_S512x1x1024_S512x512x1024_0_1_2 : S512x1x1024.BroadcastsInDim S512x512x1024 (![0, 1, 2] : Fin 3 → Fin S512x512x1024.rank)
  bcast_S1x512x1024_S512x512x1024_0_1_2 : S1x512x1024.BroadcastsInDim S512x512x1024 (![0, 1, 2] : Fin 3 → Fin S512x512x1024.rank)
  reducesTo_S512x512x1024_S512x512_d2 : S512x512x1024.ReducesTo [2] S512x512
  bcast_S_S512x512 : S_.BroadcastsInDim S512x512 (![] : Fin 0 → Fin S512x512.rank)

variable [Facts₀]

class Facts : Prop extends Facts₀ where

variable [Facts]
-- ==== Proof.Kernel.L0Data.lean ====
/-
  The first layer as the first kernel region runs it: what the region holds from one grid point to the next.

  The grid is 4 x 8 x 4 and is walked in order, so point t handles row-block t / 32, column-block (t / 4) % 8 and
  reduction block t % 4. At every point the region hands the body a 128 x 128 block of x and one of w. The body keeps
  a 128 x 128 accumulator in a scratch buffer: at a point with t % 4 = 0 it first resets the accumulator to the
  splat of the start value, and at every point it replaces the accumulator by its entrywise maximum with the
  block's own maxima (`Gen.k0_pay2`). Only at a point with t % 4 = 3 does it write the output block, the
  accumulator clamped below (`Gen.k0_pay3`); at the other points the output's staging buffer is left as found and
  is not written back.

  So what the scratch holds after point n is determined by recursion on n (`accAt`), and that is all the region's
  invariant has to remember between points (`carried`): before the first point the scratch holds anything.
-/
import proofs.«119052_j32392643346992_1_alg».proof.Proof.Gen.Kernel.Launch
import proofs.«119052_j32392643346992_1_alg».proof.Proof.Gen.Kernel.Skeleton
import proofs.«119052_j32392643346992_1_alg».proof.Proof.Gen.Kernel.Points
import Idealize.ShloMosaic.Lib.Pipeline.FrameBody
import Idealize.ShloMosaic.Lib.Pipeline.Frame

set_option maxRecDepth 16384

noncomputable section

namespace Cert.Kernel.L0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each core's unscoped buffers hold when the region is entered
variable (V : (c : Dev nD) → (b : Ref sig .tc) → Buf (Elt F) ((c : Thread nD τ).loc b))

/-! ## The blocks the body is handed -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two tests the body makes on the reduction coordinate -/

/-- "This is the first reduction block": the body's first `scf.if`, as it computes it from the coordinates. -/
abbrev first (i : grid0.Coords) : Prop :=
  (Scalar.cmpi .ne (Scalar.extui (Scalar.cmpi .eq (BitVec.ofNat 32 (i 2).val) 0#32)) 0#32) = 1#1
theorem first_iff : ∀ t : Fin cfg0.N, first (grid0.coords t) ↔ t.val % 4 = 0 :=
  (by decide +kernel : ∀ t : Fin grid0.N, first (grid0.coords t) ↔ t.val % 4 = 0)

/-- "This is the last reduction block": the body's second `scf.if`. -/
abbrev last (i : grid0.Coords) : Prop := k0_cond2 i = 1#1
theorem last_iff : ∀ t : Fin cfg0.N, last (grid0.coords t) ↔ t.val % 4 = 3 :=
  (by decide +kernel : ∀ t : Fin grid0.N, last (grid0.coords t) ↔ t.val % 4 = 3)

/-! ## Where the windows are idle -/

theorem live_x : ∀ t : Fin cfg0.N, cfg0.idle 0 (grid0.coords t) = false := by decide +kernel
theorem live_w : ∀ t : Fin cfg0.N, cfg0.idle 1 (grid0.coords t) = false := by decide +kernel
/-- Away from the last reduction block the output window is idle and is not written back. -/
theorem idle_out : ∀ t : Fin cfg0.N, ¬last (grid0.coords t) → cfg0.idle 2 (grid0.coords t) = true := by decide +kernel
theorem noflush_out : ∀ t : Fin cfg0.N, ¬last (grid0.coords t) → (cfg0.win 2).flush t = false := by decide +kernel
/-- At the last reduction block it is live. -/
theorem live_out : ∀ t : Fin cfg0.N, last (grid0.coords t) → cfg0.idle 2 (grid0.coords t) = false := by decide +kernel

/-! ## The memrefs the body is called on -/

abbrev mx (t : Fin cfg0.N) : Memref sig .tc .vmem S128x128 .f32 := win0_0.stage (cfg0.slots t 0)
abbrev hmx (t : Fin cfg0.N) : (mx t).IsWhole := hstage0_0 ((cfg0.slots t 0).cast nbuf0_0)
abbrev mw (t : Fin cfg0.N) : Memref sig .tc .vmem S128x128 .f32 := win0_1.stage (cfg0.slots t 1)
abbrev hmw (t : Fin cfg0.N) : (mw t).IsWhole := hstage0_1 ((cfg0.slots t 1).cast nbuf0_1)
abbrev mo (t : Fin cfg0.N) : Memref sig .tc .vmem S128x128 .f32 := win0_2.stage (cfg0.slots t 2)
abbrev hmo (t : Fin cfg0.N) : (mo t).IsWhole := hstage0_2 ((cfg0.slots t 2).cast nbuf0_2)
/-- The accumulator: a whole scoped buffer of the kernel's own. -/
abbrev macc : Memref sig .tc .vmem S128x128 .f32 := Memref.whole cc0_scratch0

/-! ## What the accumulator holds after each point -/

/-- One step: the accumulator `s` with point t's block maxima folded in. -/
def step (c : Dev nD) (t : Fin cfg0.N) (s : Vec F S128x128 .f32) : Vec F S128x128 .f32 :=
  k0_pay2 (iblk V c 0 t) (iblk V c 1 t) s

/-- The accumulator after point n: at a first reduction block the step from the reset value, else the step from
    what the point before left. -/
def accAt (c : Dev nD) : (n : ℕ) → n < cfg0.N → Vec F S128x128 .f32
  | 0, hn => step V c ⟨0, hn⟩ k0_pay1
  | n + 1, hn => step V c ⟨n + 1, hn⟩ (if (n + 1) % 4 = 0 then k0_pay1 else accAt c n (Nat.lt_of_succ_lt hn))

theorem accAt_first (c : Dev nD) (t : Fin cfg0.N) (h : t.val % 4 = 0) :
    accAt V c t.val t.isLt = step V c t k0_pay1 := by
  obtain ⟨n, hn⟩ := t
  cases n with
  | zero => rfl
  | succ n => simp only [accAt]; rw [if_pos h]

theorem accAt_next (c : Dev nD) (t : Fin cfg0.N) (h : ¬t.val % 4 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The invariant between points -/

/-- The class's invariant with the accumulator's buffer split off the other scoped buffers, which stay unopened. -/
theorem PhiA_split (c : Dev nD) :
    (Pipeline.ΦA spec0 c : sProp 𝕄)
      = iprop(((∃ d, owns (c : Thread nD τ) macc fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [macc, owns_whole, bigSepL]
  rfl

/-- Before point n: at the start the class's invariant (the accumulator at anything); afterwards the accumulator at
    what the point before left, the other scoped buffers unopened, the generator register at some state. -/
def carried (c : Dev nD) : (n : ℕ) → n ≤ cfg0.N → sProp 𝕄
  | 0, _ => Pipeline.ΦA spec0 c
  | n + 1, hn => iprop((owns (c : Thread nD τ) macc fullShare (accAt V c n hn)
      ∗ Pipeline.scopedRestBut (Ix := Unit) (Name := ℕ) (U := UR sig nD τ) (Lvl := ℕ) (Val := Elt F) spec0 c [cc0_scratch0])
      ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop((owns (c : Thread nD τ) macc fullShare (accAt V c n hn)
      ∗ Pipeline.scopedRestBut (Ix := Unit) (Name := ℕ) (U := UR sig nD τ) (Lvl := ℕ) (Val := Elt F) spec0 c [cc0_scratch0])
      ∗ (∃ r, prngReg c r)) := rfl

theorem carried_pos (c : Dev nD) (n : ℕ) (h : n ≤ cfg0.N) (hz : n ≠ 0) :
    carried V c n h = iprop((owns (c : Thread nD τ) macc fullShare (accAt V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-! ## The region's proof data -/

/-- The arrays as the region finds them; after the body at point t the inputs' buffers at their blocks and the
    output's at the clamped accumulator; the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (accAt V c t.val t.isLt)
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_out (c : Dev nD) (t : Fin cfg0.N) : (dat V c).after 2 t = k0_pay3 (accAt V c t.val t.isLt) := by dsimp only [dat]

/-- Each input's current staging buffer holds its block at every point, fetched there or not. -/
theorem before_x (c : Dev nD) (t : Fin cfg0.N) (d) : (dat V c).before 0 t d = iblk V c 0 t :=
  ((dat V c).before_in_eq_fetched 0 rfl (fun _ => rfl) (fun _ _ _ => rfl)
      (fun t => by rw [after_x]; unfold Dat.blockOf iblk; rw [A_eq]) t d).trans
    (by unfold Dat.fetched Dat.blockOf iblk; rw [A_eq]; try rfl)
theorem before_w (c : Dev nD) (t : Fin cfg0.N) (d) : (dat V c).before 1 t d = iblk V c 1 t :=
  ((dat V c).before_in_eq_fetched 1 rfl (fun _ => rfl) (fun _ _ _ => rfl)
      (fun t => by rw [after_w]; unfold Dat.blockOf iblk; rw [A_eq]) t d).trans
    (by unfold Dat.fetched Dat.blockOf iblk; rw [A_eq]; try rfl)

end Cert.Kernel.L0

end
-- ==== Proof.Kernel.L0Body.lean ====
/-
  The first layer's kernel body, run once per case of its two tests.

  On whole 128 x 128 buffers holding a block x of the left operand, a block w of the right one, the output block's
  staging buffer and the accumulator, the body ends with the inputs as they were and:
  * at a first reduction block, whatever the accumulator held, the accumulator at the step from the reset value;
  * at a middle block, from the accumulator at s, the accumulator at the step from s;
  * at a last block the same step, and the output's buffer, whatever it held, at the new accumulator clamped below.
  In the first two cases the output's buffer is not touched.
-/
import proofs.«119052_j32392643346992_1_alg».proof.Proof.Kernel.L0Data
import Idealize.ShloMosaic.Lib.Tactic
import Idealize.ShloMosaic.Lib.Pipeline.Value

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-block rectangle -/

/-- The whole-block rectangle sits at offset zero along each axis. -/
private theorem zero_offsets : (![0, 0] : Fin 2 → ℕ) = fun _ => 0 := funext fun a => by fin_cases a <;> rfl

/-- A load of a whole buffer through the whole-block rectangle reads the buffer's contents. -/
private theorem load_whole (a : Memref sig .tc .vmem S128x128 .f32) (h : a.IsWhole) (X : Vec F S128x128 .f32) :
    a.view.readAt (Elt F) (Rect.unit ![0, 0] S128x128.size inb_S128x128_S128x128_0_0).toLoadRect (h.unread X) = X := by
  rw [View.readAt_eq_ld, h.read_unread, View.ld_unit_zero (S := S128x128) zero_offsets]

/-- A store through the whole-block rectangle covers the buffer: made last, it leaves the buffer reading the stored
    value, whatever was stored before and whatever the buffer held. -/
private theorem read_store_whole (a : Memref sig .tc .vmem S128x128 .f32) (f : a.view.ty.Contents (Elt F))
    (v : Vec F S128x128 .f32) (L : List (View.Piece (Elt F) S128x128 .f32)) :
    a.view.read (Elt F) (a.view.writes (Elt F) f
        ((⟨Rect.unit ![0, 0] S128x128.size inb_S128x128_S128x128_0_0, v⟩ : View.Piece (Elt F) S128x128 .f32) :: L)) = v := by
  rw [View.read_writes_eq_canon _ _ _ (fun y => ⟨_, List.mem_cons.mpr (Or.inl rfl), View.mem_set_unit_zero zero_offsets inb_S128x128_S128x128_0_0 y⟩),
    View.canon_cons_unit_zero (S := S128x128) zero_offsets]

/-! ## The body's three runs -/

/-- A first reduction block that is not also the last. -/
theorem run_first (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : first i) (hl : ¬last i) (x w o : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ (∃ d, owns (c : Thread nD τ) a6 fullShare d)
        ∗ (iprop(owns (c : Thread nD τ) a3 fullShare x ∗ owns (c : Thread nD τ) a4 fullShare w ∗ owns (c : Thread nD τ) a5 fullShare o
              ∗ owns (c : Thread nD τ) a6 fullShare (k0_pay2 x w k0_pay1)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%f2, %hf2, H2⟩, ⟨%d, %f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's last store covers it; the value loaded after the reset store is the reset value
  rw [read_store_whole]
  sl_unfold_run_names
  rw [load_whole, load_whole, View.readCov_unit_zero (S := S128x128) _ zero_offsets]

/-- A middle reduction block. -/
theorem run_mid (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : ¬last i) (x w o s : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
              ∗ owns (c : Thread nD τ) a6 fullShare (k0_pay2 x w s)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's one store covers it; each load read its buffer's contents
  rw [read_store_whole, load_whole, load_whole, load_whole]

/-- A last reduction block that is not also the first. -/
theorem run_last (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : last i) (x w s : Vec F S128x128 .f32) (E : Set ℕ) (K : PUnit → sProp 𝕄) :
    iprop(owns (c : Thread nD τ) a3 fullShare x ∗ owns (c : Thread nD τ) a4 fullShare w ∗ (∃ o, owns (c : Thread nD τ) a5 fullShare o)
        ∗ owns (c : Thread nD τ) a6 fullShare s
        ∗ (iprop(owns (c : Thread nD τ) a3 fullShare x ∗ owns (c : Thread nD τ) a4 fullShare w ∗ owns (c : Thread nD τ) a5 fullShare (k0_pay3 (k0_pay2 x w s))
              ∗ owns (c : Thread nD τ) a6 fullShare (k0_pay2 x w s)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%o, %f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    swap
    · iexact H2
    ipureintro
    -- the output's one store covers it; the accumulator loaded after its store reads the stored step
    rw [read_store_whole]
    sl_unfold_run_names
    rw [View.readCov_unit_zero (S := S128x128) _ zero_offsets, load_whole, load_whole, load_whole]
  iexists _; isplitr
  swap
  · iexact H3
  ipureintro
  -- the accumulator's one store covers it; each load read its buffer's contents
  sl_unfold_run_names
  rw [read_store_whole, load_whole, load_whole, load_whole]

end Cert.Kernel.L0

end
-- ==== Proof.Kernel.L0Point.lean ====
/-
  The first layer's region, one grid point at a time: from what the region holds before point t the body runs to
  what it holds before point t + 1.

  The body is handed the invariant (`carried`: the accumulator at what the point before left, or at anything before
  the first point), the core's dues (none), and the three windows' current staging buffers: the two inputs at their
  blocks, the output's at whatever the schedule left there. Which of the three runs applies is read off t % 4: the
  first reduction block resets the accumulator, the last one writes the output block, the ones between only fold.
  Away from the last block the output window is idle and its buffer goes back untouched.
-/
import proofs.«119052_j32392643346992_1_alg».proof.Proof.Kernel.L0Body

set_option maxRecDepth 16384

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one. -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the accumulator's buffer holds something: at the start by the class's invariant, afterwards
    what the point before left. -/
private theorem carried_some (c : Dev nD) (n : ℕ) (h : n ≤ cfg0.N) :
    carried V c n h ⊢ iprop(((∃ d, owns (c : Thread nD τ) macc fullShare d)
      ∗ Pipeline.scopedRestBut (Ix := Unit) (Name := ℕ) (U := UR sig nD τ) (Lvl := ℕ) (Val := Elt F) spec0 c [cc0_scratch0])
      ∗ (∃ r, prngReg c r)) := by
  by_cases hz : n = 0
  · rw [carried_zero V c n h hz, PhiA_split]
  · rw [carried_pos V c n h hz]
    iintro ⟨⟨HS, HR⟩, Hg⟩
    isplitr [Hg]
    · isplitl [HS]
      · iexists _; iexact HS
      iexact HR
    iexact Hg

/-- The body at any point: the case is read off t % 4, and that case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  -- the inputs' buffers hold their blocks, before the body and after it
  simp only [before_x, before_w]
  rw [show (dat V c).leavesExact 0 t = owns (c : Thread nD τ) (mx t) fullShare (iblk V c 0 t) from by
      unfold Dat.leavesExact; rw [live_x t, after_x]]
  rw [show (dat V c).leavesExact 1 t = owns (c : Thread nD τ) (mw t) fullShare (iblk V c 1 t) from by
      unfold Dat.leavesExact; rw [live_w t, after_w]]
  -- nothing is owed, before or after; the invariant after the point is the accumulator at accAt t
  rw [show (dat V c).owesAt () t.succ = (dat V c).owesAt () t.castSucc from rfl]
  rw [show (dat V c).Φ t.succ = carried V c (t.val + 1) t.isLt from rfl, carried_succ, carried_castSucc]
  by_cases h1 : t.val % 4 = 3
  · -- a last block (so not a first one): the step from what the point before left, and the output block written
    have h0 : ¬t.val % 4 = 0 := by omega
    have hz : t.val ≠ 0 := fun h => h0 (by rw [h])
    have hf : ¬first (grid0.coords t) := fun h => h0 ((first_iff t).mp h)
    have hl : last (grid0.coords t) := (last_iff t).mpr h1
    rw [show (dat V c).leavesExact 2 t = owns (c : Thread nD τ) (mo t) fullShare (k0_pay3 (accAt V c t.val t.isLt)) from by
      unfold Dat.leavesExact; rw [live_out t hl, after_out]]
    rw [accAt_next V c t h0, carried_pos V c _ _ hz]; unfold step
    iintro ⟨⟨⟨HS, HR⟩, Hg⟩, Ho, ⟨%dx, Hx⟩, ⟨%dw, Hw⟩, ⟨%d2, Hout⟩⟩
    iapply (run_last c (grid0.coords t) (mx t) (hmx t) (mw t) (hmw t) (mo t) (hmo t) macc (Memref.isWhole_whole _) hf hl
      (iblk V c 0 t) (iblk V c 1 t) (accAt V c (t.val - 1) (Nat.lt_of_le_of_lt (Nat.sub_le _ _) t.isLt)) Set.univ _)
    isplitl [Hx]; · iexact Hx
    isplitl [Hw]; · iexact Hw
    isplitl [Hout]; · iexists _; iexact Hout
    isplitl [HS]; · iexact HS
    iintro ⟨Hx, Hw, Hout, HS⟩
    isplitl [HS HR Hg]
    · isplitr [Hg]
      · isplitl [HS]; · iexact HS
        iexact HR
      iexact Hg
    isplitl [Ho]; · iexact Ho
    isplitl [Hx]; · iexact Hx
    isplitl [Hw]; · iexact Hw
    iexact Hout
  · -- away from the last block the output's buffer is idle: it goes back as it came
    have hl : ¬last (grid0.coords t) := fun h => h1 ((last_iff t).mp h)
    rw [Dat.leavesExact_idle (dat V c) 2 t (idle_out t hl) (noflush_out t hl)]
    by_cases h0 : t.val % 4 = 0
    · -- a first block: whatever the accumulator held, the step from the reset value
      have hf : first (grid0.coords t) := (first_iff t).mpr h0
      rw [accAt_first V c t h0]; unfold step
      refine (sep_mono (carried_some V c t.val _) .rfl).trans ?_
      iintro ⟨⟨⟨HS, HR⟩, Hg⟩, Ho, ⟨%dx, Hx⟩, ⟨%dw, Hw⟩, ⟨%d2, Hout⟩⟩
      iapply (run_first c (grid0.coords t) (mx t) (hmx t) (mw t) (hmw t) (mo t) (hmo t) macc (Memref.isWhole_whole _) hf hl
        (iblk V c 0 t) (iblk V c 1 t) ((dat V c).before 2 t d2) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout
    · -- a middle block: the step from what the point before left
      have hz : t.val ≠ 0 := fun h => h0 (by rw [h])
      have hf : ¬first (grid0.coords t) := fun h => h0 ((first_iff t).mp h)
      rw [accAt_next V c t h0, carried_pos V c _ _ hz]; unfold step
      iintro ⟨⟨⟨HS, HR⟩, Hg⟩, Ho, ⟨%dx, Hx⟩, ⟨%dw, Hw⟩, ⟨%d2, Hout⟩⟩
      iapply (run_mid c (grid0.coords t) (mx t) (hmx t) (mw t) (hmw t) (mo t) (hmo t) macc (Memref.isWhole_whole _) hf hl
        (iblk V c 0 t) (iblk V c 1 t) ((dat V c).before 2 t d2)
        (accAt V c (t.val - 1) (Nat.lt_of_le_of_lt (Nat.sub_le _ _) t.isLt)) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.L0

end
-- ==== Proof.Kernel.L1Data.lean ====
/-
  The second layer as the second kernel region runs it: what the region holds from one grid point to the next.

  The grid is 4 x 4 x 8 and is walked in order, so point t handles row-block t / 32, column-block (t / 8) % 4 and
  reduction block t % 8. At every point the region hands the body a 128 x 128 block of x and one of w. The body keeps
  a 128 x 128 accumulator in a scratch buffer: at a point with t % 8 = 0 it first resets the accumulator to the
  splat of the start value, and at every point it replaces the accumulator by its entrywise maximum with the
  block's own maxima (`Gen.k1_pay2`). Only at a point with t % 8 = 7 does it write the output block, the
  accumulator clamped below (`Gen.k1_pay3`); at the other points the output's staging buffer is left as found and
  is not written back.

  So what the scratch holds after point n is determined by recursion on n (`accAt`), and that is all the region's
  invariant has to remember between points (`carried`): before the first point the scratch holds anything.
-/
import proofs.«119052_j32392643346992_1_alg».proof.Proof.Gen.Kernel.Launch
import proofs.«119052_j32392643346992_1_alg».proof.Proof.Gen.Kernel.Skeleton
import proofs.«119052_j32392643346992_1_alg».proof.Proof.Gen.Kernel.Points
import Idealize.ShloMosaic.Lib.Pipeline.FrameBody
import Idealize.ShloMosaic.Lib.Pipeline.Frame

set_option maxRecDepth 16384

noncomputable section

namespace Cert.Kernel.L1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each core's unscoped buffers hold when the region is entered
variable (V : (c : Dev nD) → (b : Ref sig .tc) → Buf (Elt F) ((c : Thread nD τ).loc b))

/-! ## The blocks the body is handed -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two tests the body makes on the reduction coordinate -/

/-- "This is the first reduction block": the body's first `scf.if`, as it computes it from the coordinates. -/
abbrev first (i : grid1.Coords) : Prop :=
  (Scalar.cmpi .ne (Scalar.extui (Scalar.cmpi .eq (BitVec.ofNat 32 (i 2).val) 0#32)) 0#32) = 1#1
theorem first_iff : ∀ t : Fin cfg1.N, first (grid1.coords t) ↔ t.val % 8 = 0 :=
  (by decide +kernel : ∀ t : Fin grid1.N, first (grid1.coords t) ↔ t.val % 8 = 0)

/-- "This is the last reduction block": the body's second `scf.if`. -/
abbrev last (i : grid1.Coords) : Prop := k1_cond2 i = 1#1
theorem last_iff : ∀ t : Fin cfg1.N, last (grid1.coords t) ↔ t.val % 8 = 7 :=
  (by decide +kernel : ∀ t : Fin grid1.N, last (grid1.coords t) ↔ t.val % 8 = 7)

/-! ## Where the windows are idle -/

theorem live_x : ∀ t : Fin cfg1.N, cfg1.idle 0 (grid1.coords t) = false := by decide +kernel
theorem live_w : ∀ t : Fin cfg1.N, cfg1.idle 1 (grid1.coords t) = false := by decide +kernel
/-- Away from the last reduction block the output window is idle and is not written back. -/
theorem idle_out : ∀ t : Fin cfg1.N, ¬last (grid1.coords t) → cfg1.idle 2 (grid1.coords t) = true := by decide +kernel
theorem noflush_out : ∀ t : Fin cfg1.N, ¬last (grid1.coords t) → (cfg1.win 2).flush t = false := by decide +kernel
/-- At the last reduction block it is live. -/
theorem live_out : ∀ t : Fin cfg1.N, last (grid1.coords t) → cfg1.idle 2 (grid1.coords t) = false := by decide +kernel

/-! ## The memrefs the body is called on -/

abbrev mx (t : Fin cfg1.N) : Memref sig .tc .vmem S128x128 .f32 := win1_0.stage (cfg1.slots t 0)
abbrev hmx (t : Fin cfg1.N) : (mx t).IsWhole := hstage1_0 ((cfg1.slots t 0).cast nbuf1_0)
abbrev mw (t : Fin cfg1.N) : Memref sig .tc .vmem S128x128 .f32 := win1_1.stage (cfg1.slots t 1)
abbrev hmw (t : Fin cfg1.N) : (mw t).IsWhole := hstage1_1 ((cfg1.slots t 1).cast nbuf1_1)
abbrev mo (t : Fin cfg1.N) : Memref sig .tc .vmem S128x128 .f32 := win1_2.stage (cfg1.slots t 2)
abbrev hmo (t : Fin cfg1.N) : (mo t).IsWhole := hstage1_2 ((cfg1.slots t 2).cast nbuf1_2)
/-- The accumulator: a whole scoped buffer of the kernel's own. -/
abbrev macc : Memref sig .tc .vmem S128x128 .f32 := Memref.whole cc1_scratch0

/-! ## What the accumulator holds after each point -/

/-- One step: the accumulator `s` with point t's block maxima folded in. -/
def step (c : Dev nD) (t : Fin cfg1.N) (s : Vec F S128x128 .f32) : Vec F S128x128 .f32 :=
  k1_pay2 (iblk V c 0 t) (iblk V c 1 t) s

/-- The accumulator after point n: at a first reduction block the step from the reset value, else the step from
    what the point before left. -/
def accAt (c : Dev nD) : (n : ℕ) → n < cfg1.N → Vec F S128x128 .f32
  | 0, hn => step V c ⟨0, hn⟩ k1_pay1
  | n + 1, hn => step V c ⟨n + 1, hn⟩ (if (n + 1) % 8 = 0 then k1_pay1 else accAt c n (Nat.lt_of_succ_lt hn))

theorem accAt_first (c : Dev nD) (t : Fin cfg1.N) (h : t.val % 8 = 0) :
    accAt V c t.val t.isLt = step V c t k1_pay1 := by
  obtain ⟨n, hn⟩ := t
  cases n with
  | zero => rfl
  | succ n => simp only [accAt]; rw [if_pos h]

theorem accAt_next (c : Dev nD) (t : Fin cfg1.N) (h : ¬t.val % 8 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The invariant between points -/

/-- The class's invariant with the accumulator's buffer split off the other scoped buffers, which stay unopened. -/
theorem PhiA_split (c : Dev nD) :
    (Pipeline.ΦA spec1 c : sProp 𝕄)
      = iprop(((∃ d, owns (c : Thread nD τ) macc fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [macc, owns_whole, bigSepL]
  rfl

/-- Before point n: at the start the class's invariant (the accumulator at anything); afterwards the accumulator at
    what the point before left, the other scoped buffers unopened, the generator register at some state. -/
def carried (c : Dev nD) : (n : ℕ) → n ≤ cfg1.N → sProp 𝕄
  | 0, _ => Pipeline.ΦA spec1 c
  | n + 1, hn => iprop((owns (c : Thread nD τ) macc fullShare (accAt V c n hn)
      ∗ Pipeline.scopedRestBut (Ix := Unit) (Name := ℕ) (U := UR sig nD τ) (Lvl := ℕ) (Val := Elt F) spec1 c [cc1_scratch0])
      ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop((owns (c : Thread nD τ) macc fullShare (accAt V c n hn)
      ∗ Pipeline.scopedRestBut (Ix := Unit) (Name := ℕ) (U := UR sig nD τ) (Lvl := ℕ) (Val := Elt F) spec1 c [cc1_scratch0])
      ∗ (∃ r, prngReg c r)) := rfl

theorem carried_pos (c : Dev nD) (n : ℕ) (h : n ≤ cfg1.N) (hz : n ≠ 0) :
    carried V c n h = iprop((owns (c : Thread nD τ) macc fullShare (accAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The region's proof data -/

/-- The arrays as the region finds them; after the body at point t the inputs' buffers at their blocks and the
    output's at the clamped accumulator; the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (accAt V c t.val t.isLt)
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_out (c : Dev nD) (t : Fin cfg1.N) : (dat V c).after 2 t = k1_pay3 (accAt V c t.val t.isLt) := by dsimp only [dat]

/-- Each input's current staging buffer holds its block at every point, fetched there or not. -/
theorem before_x (c : Dev nD) (t : Fin cfg1.N) (d) : (dat V c).before 0 t d = iblk V c 0 t :=
  ((dat V c).before_in_eq_fetched 0 rfl (fun _ => rfl) (fun _ _ _ => rfl)
      (fun t => by rw [after_x]; unfold Dat.blockOf iblk; rw [A_eq]) t d).trans
    (by unfold Dat.fetched Dat.blockOf iblk; rw [A_eq]; try rfl)
theorem before_w (c : Dev nD) (t : Fin cfg1.N) (d) : (dat V c).before 1 t d = iblk V c 1 t :=
  ((dat V c).before_in_eq_fetched 1 rfl (fun _ => rfl) (fun _ _ _ => rfl)
      (fun t => by rw [after_w]; unfold Dat.blockOf iblk; rw [A_eq]) t d).trans
    (by unfold Dat.fetched Dat.blockOf iblk; rw [A_eq]; try rfl)

end Cert.Kernel.L1

end
-- ==== Proof.Kernel.L1Body.lean ====
/-
  The second layer's kernel body, run once per case of its two tests.

  On whole 128 x 128 buffers holding a block x of the left operand, a block w of the right one, the output block's
  staging buffer and the accumulator, the body ends with the inputs as they were and:
  * at a first reduction block, whatever the accumulator held, the accumulator at the step from the reset value;
  * at a middle block, from the accumulator at s, the accumulator at the step from s;
  * at a last block the same step, and the output's buffer, whatever it held, at the new accumulator clamped below.
  In the first two cases the output's buffer is not touched.
-/
import proofs.«119052_j32392643346992_1_alg».proof.Proof.Kernel.L1Data
import Idealize.ShloMosaic.Lib.Tactic
import Idealize.ShloMosaic.Lib.Pipeline.Value

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-block rectangle -/

/-- The whole-block rectangle sits at offset zero along each axis. -/
private theorem zero_offsets : (![0, 0] : Fin 2 → ℕ) = fun _ => 0 := funext fun a => by fin_cases a <;> rfl

/-- A load of a whole buffer through the whole-block rectangle reads the buffer's contents. -/
private theorem load_whole (a : Memref sig .tc .vmem S128x128 .f32) (h : a.IsWhole) (X : Vec F S128x128 .f32) :
    a.view.readAt (Elt F) (Rect.unit ![0, 0] S128x128.size inb_S128x128_S128x128_0_0).toLoadRect (h.unread X) = X := by
  rw [View.readAt_eq_ld, h.read_unread, View.ld_unit_zero (S := S128x128) zero_offsets]

/-- A store through the whole-block rectangle covers the buffer: made last, it leaves the buffer reading the stored
    value, whatever was stored before and whatever the buffer held. -/
private theorem read_store_whole (a : Memref sig .tc .vmem S128x128 .f32) (f : a.view.ty.Contents (Elt F))
    (v : Vec F S128x128 .f32) (L : List (View.Piece (Elt F) S128x128 .f32)) :
    a.view.read (Elt F) (a.view.writes (Elt F) f
        ((⟨Rect.unit ![0, 0] S128x128.size inb_S128x128_S128x128_0_0, v⟩ : View.Piece (Elt F) S128x128 .f32) :: L)) = v := by
  rw [View.read_writes_eq_canon _ _ _ (fun y => ⟨_, List.mem_cons.mpr (Or.inl rfl), View.mem_set_unit_zero zero_offsets inb_S128x128_S128x128_0_0 y⟩),
    View.canon_cons_unit_zero (S := S128x128) zero_offsets]

/-! ## The body's three runs -/

/-- A first reduction block that is not also the last. -/
theorem run_first (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : first i) (hl : ¬last i) (x w o : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ (∃ d, owns (c : Thread nD τ) a6 fullShare d)
        ∗ (iprop(owns (c : Thread nD τ) a3 fullShare x ∗ owns (c : Thread nD τ) a4 fullShare w ∗ owns (c : Thread nD τ) a5 fullShare o
              ∗ owns (c : Thread nD τ) a6 fullShare (k1_pay2 x w k1_pay1)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%f2, %hf2, H2⟩, ⟨%d, %f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's last store covers it; the value loaded after the reset store is the reset value
  rw [read_store_whole]
  sl_unfold_run_names
  rw [load_whole, load_whole, View.readCov_unit_zero (S := S128x128) _ zero_offsets]

/-- A middle reduction block. -/
theorem run_mid (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : ¬last i) (x w o s : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
              ∗ owns (c : Thread nD τ) a6 fullShare (k1_pay2 x w s)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's one store covers it; each load read its buffer's contents
  rw [read_store_whole, load_whole, load_whole, load_whole]

/-- A last reduction block that is not also the first. -/
theorem run_last (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : last i) (x w s : Vec F S128x128 .f32) (E : Set ℕ) (K : PUnit → sProp 𝕄) :
    iprop(owns (c : Thread nD τ) a3 fullShare x ∗ owns (c : Thread nD τ) a4 fullShare w ∗ (∃ o, owns (c : Thread nD τ) a5 fullShare o)
        ∗ owns (c : Thread nD τ) a6 fullShare s
        ∗ (iprop(owns (c : Thread nD τ) a3 fullShare x ∗ owns (c : Thread nD τ) a4 fullShare w ∗ owns (c : Thread nD τ) a5 fullShare (k1_pay3 (k1_pay2 x w s))
              ∗ owns (c : Thread nD τ) a6 fullShare (k1_pay2 x w s)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%o, %f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    swap
    · iexact H2
    ipureintro
    -- the output's one store covers it; the accumulator loaded after its store reads the stored step
    rw [read_store_whole]
    sl_unfold_run_names
    rw [View.readCov_unit_zero (S := S128x128) _ zero_offsets, load_whole, load_whole, load_whole]
  iexists _; isplitr
  swap
  · iexact H3
  ipureintro
  -- the accumulator's one store covers it; each load read its buffer's contents
  sl_unfold_run_names
  rw [read_store_whole, load_whole, load_whole, load_whole]

end Cert.Kernel.L1

end
-- ==== Proof.Kernel.L1Point.lean ====
/-
  The second layer's region, one grid point at a time: from what the region holds before point t the body runs to
  what it holds before point t + 1.

  The body is handed the invariant (`carried`: the accumulator at what the point before left, or at anything before
  the first point), the core's dues (none), and the three windows' current staging buffers: the two inputs at their
  blocks, the output's at whatever the schedule left there. Which of the three runs applies is read off t % 8: the
  first reduction block resets the accumulator, the last one writes the output block, the ones between only fold.
  Away from the last block the output window is idle and its buffer goes back untouched.
-/
import proofs.«119052_j32392643346992_1_alg».proof.Proof.Kernel.L1Body

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one. -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the accumulator's buffer holds something: at the start by the class's invariant, afterwards
    what the point before left. -/
private theorem carried_some (c : Dev nD) (n : ℕ) (h : n ≤ cfg1.N) :
    carried V c n h ⊢ iprop(((∃ d, owns (c : Thread nD τ) macc fullShare d)
      ∗ Pipeline.scopedRestBut (Ix := Unit) (Name := ℕ) (U := UR sig nD τ) (Lvl := ℕ) (Val := Elt F) spec1 c [cc1_scratch0])
      ∗ (∃ r, prngReg c r)) := by
  by_cases hz : n = 0
  · rw [carried_zero V c n h hz, PhiA_split]
  · rw [carried_pos V c n h hz]
    iintro ⟨⟨HS, HR⟩, Hg⟩
    isplitr [Hg]
    · isplitl [HS]
      · iexists _; iexact HS
      iexact HR
    iexact Hg

/-- The body at any point: the case is read off t % 8, and that case's run applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  -- the inputs' buffers hold their blocks, before the body and after it
  simp only [before_x, before_w]
  rw [show (dat V c).leavesExact 0 t = owns (c : Thread nD τ) (mx t) fullShare (iblk V c 0 t) from by
      unfold Dat.leavesExact; rw [live_x t, after_x]]
  rw [show (dat V c).leavesExact 1 t = owns (c : Thread nD τ) (mw t) fullShare (iblk V c 1 t) from by
      unfold Dat.leavesExact; rw [live_w t, after_w]]
  -- nothing is owed, before or after; the invariant after the point is the accumulator at accAt t
  rw [show (dat V c).owesAt () t.succ = (dat V c).owesAt () t.castSucc from rfl]
  rw [show (dat V c).Φ t.succ = carried V c (t.val + 1) t.isLt from rfl, carried_succ, carried_castSucc]
  by_cases h1 : t.val % 8 = 7
  · -- a last block (so not a first one): the step from what the point before left, and the output block written
    have h0 : ¬t.val % 8 = 0 := by omega
    have hz : t.val ≠ 0 := fun h => h0 (by rw [h])
    have hf : ¬first (grid1.coords t) := fun h => h0 ((first_iff t).mp h)
    have hl : last (grid1.coords t) := (last_iff t).mpr h1
    rw [show (dat V c).leavesExact 2 t = owns (c : Thread nD τ) (mo t) fullShare (k1_pay3 (accAt V c t.val t.isLt)) from by
      unfold Dat.leavesExact; rw [live_out t hl, after_out]]
    rw [accAt_next V c t h0, carried_pos V c _ _ hz]; unfold step
    iintro ⟨⟨⟨HS, HR⟩, Hg⟩, Ho, ⟨%dx, Hx⟩, ⟨%dw, Hw⟩, ⟨%d2, Hout⟩⟩
    iapply (run_last c (grid1.coords t) (mx t) (hmx t) (mw t) (hmw t) (mo t) (hmo t) macc (Memref.isWhole_whole _) hf hl
      (iblk V c 0 t) (iblk V c 1 t) (accAt V c (t.val - 1) (Nat.lt_of_le_of_lt (Nat.sub_le _ _) t.isLt)) Set.univ _)
    isplitl [Hx]; · iexact Hx
    isplitl [Hw]; · iexact Hw
    isplitl [Hout]; · iexists _; iexact Hout
    isplitl [HS]; · iexact HS
    iintro ⟨Hx, Hw, Hout, HS⟩
    isplitl [HS HR Hg]
    · isplitr [Hg]
      · isplitl [HS]; · iexact HS
        iexact HR
      iexact Hg
    isplitl [Ho]; · iexact Ho
    isplitl [Hx]; · iexact Hx
    isplitl [Hw]; · iexact Hw
    iexact Hout
  · -- away from the last block the output's buffer is idle: it goes back as it came
    have hl : ¬last (grid1.coords t) := fun h => h1 ((last_iff t).mp h)
    rw [Dat.leavesExact_idle (dat V c) 2 t (idle_out t hl) (noflush_out t hl)]
    by_cases h0 : t.val % 8 = 0
    · -- a first block: whatever the accumulator held, the step from the reset value
      have hf : first (grid1.coords t) := (first_iff t).mpr h0
      rw [accAt_first V c t h0]; unfold step
      refine (sep_mono (carried_some V c t.val _) .rfl).trans ?_
      iintro ⟨⟨⟨HS, HR⟩, Hg⟩, Ho, ⟨%dx, Hx⟩, ⟨%dw, Hw⟩, ⟨%d2, Hout⟩⟩
      iapply (run_first c (grid1.coords t) (mx t) (hmx t) (mw t) (hmw t) (mo t) (hmo t) macc (Memref.isWhole_whole _) hf hl
        (iblk V c 0 t) (iblk V c 1 t) ((dat V c).before 2 t d2) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout
    · -- a middle block: the step from what the point before left
      have hz : t.val ≠ 0 := fun h => h0 (by rw [h])
      have hf : ¬first (grid1.coords t) := fun h => h0 ((first_iff t).mp h)
      rw [accAt_next V c t h0, carried_pos V c _ _ hz]; unfold step
      iintro ⟨⟨⟨HS, HR⟩, Hg⟩, Ho, ⟨%dx, Hx⟩, ⟨%dw, Hw⟩, ⟨%d2, Hout⟩⟩
      iapply (run_mid c (grid1.coords t) (mx t) (hmx t) (mw t) (hmw t) (mo t) (hmo t) macc (Memref.isWhole_whole _) hf hl
        (iblk V c 0 t) (iblk V c 1 t) ((dat V c).before 2 t d2)
        (accAt V c (t.val - 1) (Nat.lt_of_le_of_lt (Nat.sub_le _ _) t.isLt)) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.L1

end
-- ==== Proof.Kernel.Regions.lean ====
/-
  The two layers in sequence: each kernel region as one step of the program, and the program's frame.

  Between two steps a core holds every unscoped buffer at known contents. The first region reads x and w1 and may
  change only the intermediate array h; the second reads h and w2 and may change only the result y. So the contents
  after the first region are the launch contents with h replaced by what that region's write-backs leave
  (`afterL0`), and after the second those with y replaced likewise (`afterL1`). Each region is entered with its
  arrays split out of the unscoped buffers and left with them put back at the updated contents; the generator
  register and the core's dues (none) ride along; the accumulator and the other scoped buffers enter the region's
  invariant at anything and are forgotten again at its end.
-/
import proofs.«119052_j32392643346992_1_alg».proof.Proof.Kernel.L0Point
import proofs.«119052_j32392643346992_1_alg».proof.Proof.Kernel.L1Point
import proofs.«119052_j32392643346992_1_alg».proof.Proof.Gen.Kernel.Regions
import Idealize.ShloMosaic.Lib.Pipeline.RegionsLoop

set_option maxRecDepth 16384

noncomputable section

namespace Cert.Kernel.Seq

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- At launch, read at a TensorCore reference. -/
abbrev atLaunch (c : Dev nD) (b : Ref sig .tc) : Buf (Elt F) ((c : Thread nD τ).loc b) := Gen.V0 m c b

/-- After the first region: the launch contents with the intermediate array at what that region leaves. -/
def afterL0 (c : Dev nD) : Valuation τ sig (Elt F) :=
  Function.update (Gen.V0 m c) main_v0 (((L0.dat (atLaunch m) c).arrAt 2 cfg0.N : Buf (Elt F) ((c : Thread nD τ).loc main_v0)))
abbrev atL0 (c : Dev nD) (b : Ref sig .tc) : Buf (Elt F) ((c : Thread nD τ).loc b) := afterL0 m c b

/-- After the second region: those with the result array at what the second region leaves. -/
def afterL1 (c : Dev nD) : Valuation τ sig (Elt F) :=
  Function.update (afterL0 m c) main_v1 (((L1.dat (atL0 m) c).arrAt 2 cfg1.N : Buf (Elt F) ((c : Thread nD τ).loc main_v1)))
abbrev atL1 (c : Dev nD) (b : Ref sig .tc) : Buf (Elt F) ((c : Thread nD τ).loc b) := afterL1 m c b

/-- What each region leaves in the buffers it may change, in the form the program's host-side frame asks for. -/
def leftBy : Gen.Outs (F := F) := fun J r c =>
  match J with
  | 1 => afterL0 m c r
  | _ => afterL1 m c r

theorem V1_eq (c : Dev nD) : Gen.V1 m (leftBy m) c = afterL0 m c := by
  show Function.update (Gen.V0 m c) main_v0 (afterL0 m c main_v0) = afterL0 m c
  unfold afterL0; rw [Function.update_self]

theorem V2_eq (c : Dev nD) : Gen.V2 m (leftBy m) c = afterL1 m c := by
  show Function.update (Gen.V1 m (leftBy m) c) main_v1 (afterL1 m c main_v1) = afterL1 m c
  rw [V1_eq]; unfold afterL1; rw [Function.update_self]

/-! ## The two regions' proof data, and what rides beside the buffers -/

/-- Every pipeline's proof data, each at the contents its region is entered with. -/
def pdats : (p : Fin 2) → (c : Dev nD) → Dat τ (Elt F) Unit ℕ (UR sig nD τ) ℕ (Pipeline.pin (pcfgs (F := F)) Gen.adm p) c
  | ⟨0, _⟩ => fun c => L0.dat (atLaunch m) c
  | ⟨1, _⟩ => fun c => L1.dat (atL0 m) c

abbrev noVariants : Variants := Variants.none
/-- No core owes another anything: no level is assigned. -/
abbrev noPairs : GSem nD τ sig → Finset Unit := fun _ => ∅
abbrev noLevel : GSem nD τ sig → Unit → ℕ := fun _ _ => 0

/-- Beside the buffers at every boundary: the generator register at some state, and the core owing nothing. -/
abbrev beside (c : Dev nD) : sProp 𝕄 := iprop((∃ r, prngReg c r) ∗ ∃ W, owes (c : Thread nD τ) (0 : CellTallies nD τ sig Unit) W)

/-! ## What each region leaves: its arrays at the exit contents, everything else as entered -/

theorem exit0_arr (c : Dev nD) (w : Fin cfg0.W) :
    (pdats m 0 c).arrAt w cfg0.N = atL0 m c (Pipeline.arrRef spec0 w) := by
  match w with
  | ⟨0, _⟩ =>
    refine ((L0.dat (atLaunch m) c).arrAt_in 0 rfl _).trans ((L0.A_eq (atLaunch m) c 0).trans ?_)
    exact (Function.update_of_ne (StableHlo.devRef_ne_of_ne (by decide) : (Proc.devRef .tc main_arg0 : DevRef τ sig) ≠ Proc.devRef .tc main_v0) _ _).symm
  | ⟨1, _⟩ =>
    refine ((L0.dat (atLaunch m) c).arrAt_in 1 rfl _).trans ((L0.A_eq (atLaunch m) c 1).trans ?_)
    exact (Function.update_of_ne (StableHlo.devRef_ne_of_ne (by decide) : (Proc.devRef .tc main_arg1 : DevRef τ sig) ≠ Proc.devRef .tc main_v0) _ _).symm
  | ⟨2, _⟩ => exact (Function.update_self (f := Gen.V0 m c) (Proc.devRef .tc main_v0 : DevRef τ sig) _).symm

theorem exit0_rest (c : Dev nD) : ∀ b, b ∉ Finset.univ.image (Pipeline.arrRef spec0) → atL0 m c b = atLaunch m c b := by
  intro b hb
  have hne : b ≠ main_v0 := fun e => hb (Finset.mem_image.mpr ⟨2, Finset.mem_univ _, e.symm⟩)
  exact Function.update_of_ne (StableHlo.devRef_ne_of_ne hne) _ _

theorem exit1_arr (c : Dev nD) (w : Fin cfg1.W) :
    (pdats m 1 c).arrAt w cfg1.N = atL1 m c (Pipeline.arrRef spec1 w) := by
  match w with
  | ⟨0, _⟩ =>
    refine ((L1.dat (atL0 m) c).arrAt_in 0 rfl _).trans ((L1.A_eq (atL0 m) c 0).trans ?_)
    exact (Function.update_of_ne (StableHlo.devRef_ne_of_ne (by decide) : (Proc.devRef .tc main_v0 : DevRef τ sig) ≠ Proc.devRef .tc main_v1) _ _).symm
  | ⟨1, _⟩ =>
    refine ((L1.dat (atL0 m) c).arrAt_in 1 rfl _).trans ((L1.A_eq (atL0 m) c 1).trans ?_)
    exact (Function.update_of_ne (StableHlo.devRef_ne_of_ne (by decide) : (Proc.devRef .tc main_arg2 : DevRef τ sig) ≠ Proc.devRef .tc main_v1) _ _).symm
  | ⟨2, _⟩ => exact (Function.update_self (f := afterL0 m c) (Proc.devRef .tc main_v1 : DevRef τ sig) _).symm

theorem exit1_rest (c : Dev nD) : ∀ b, b ∉ Finset.univ.image (Pipeline.arrRef spec1) → atL1 m c b = atL0 m c b := by
  intro b hb
  have hne : b ≠ main_v1 := fun e => hb (Finset.mem_image.mpr ⟨2, Finset.mem_univ _, e.symm⟩)
  exact Function.update_of_ne (StableHlo.devRef_ne_of_ne hne) _ _

/-! ## The regions as steps -/

set_option backward.isDefEq.respectTransparency.types false in
/-- The first region: entered with every unscoped buffer at the launch contents, left with them at `afterL0`. -/
def reg0 : RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (L0.body_obligation (atLaunch m) c).loose
  hwaits := Pipeline.hwaits_of_owed_zero _ _ _ _ noPairs noLevel 0 fun _ _ => rfl
  pre c := iprop(StableHlo.held (c : Thread nD τ) (Pipeline.ucRefs τ sig) (Gen.V0 m c) ∗ beside c)
  post c := iprop(StableHlo.held (c : Thread nD τ) (Pipeline.ucRefs τ sig) (afterL0 m c) ∗ beside c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hrest
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none]
    have hN : (Fin.last cfg0.N).val ≠ 0 := by rw [Fin.val_last]; have : cfg0.N = 128 := N_0; omega
    show L0.carried (atLaunch m) c (Fin.last cfg0.N).val (Nat.le_of_lt_succ (Fin.last cfg0.N).isLt)
      ⊢ iprop((∃ r, prngReg c r) ∗ BI.emp
          ∗ Pipeline.scopedRest (Ix := Unit) (Name := ℕ) (U := UR sig nD τ) (Lvl := ℕ) (Val := Elt F) spec0 c)
    rw [L0.carried_pos (atLaunch m) c _ _ hN]
    iintro ⟨⟨Hacc, Hothers⟩, Hgen⟩
    isplitl [Hgen]; · iexact Hgen
    isplitr; · iempintro
    iapply (show iprop(((∃ d, owns (c : Thread nD τ) L0.macc fullShare d)
        ∗ Pipeline.scopedRestBut (Ix := Unit) (Name := ℕ) (U := UR sig nD τ) (Lvl := ℕ) (Val := Elt F) spec0 c [cc0_scratch0]))
        ⊢ (Pipeline.scopedRest (Ix := Unit) (Name := ℕ) (U := UR sig nD τ) (Lvl := ℕ) (Val := Elt F) spec0 c : sProp 𝕄) from by
      rw [Pipeline.scopedRest_split_of_list spec0 c [cc0_scratch0] (by decide) (by decide)]
      simp only [L0.macc, owns_whole, bigSepL]
      exact BI.Entails.refl _)
    isplitl [Hacc]; · iexists _; iexact Hacc
    iexact Hothers
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (atL0 m c) ((pdats m 0 c).arrAt · cfg0.N) (exit0_arr m c) (exit0_rest m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The second region: entered at `afterL0`, left at `afterL1`. -/
def reg1 : RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (L1.body_obligation (atL0 m) c).loose
  hwaits := Pipeline.hwaits_of_owed_zero _ _ _ _ noPairs noLevel 1 fun _ _ => rfl
  pre c := iprop(StableHlo.held (c : Thread nD τ) (Pipeline.ucRefs τ sig) (afterL0 m c) ∗ beside c)
  post c := iprop(StableHlo.held (c : Thread nD τ) (Pipeline.ucRefs τ sig) (afterL1 m c) ∗ beside c)
  X c := iprop(∃ r, prngReg c r)
  Y c := iprop(∃ r, prngReg c r)
  Z c := Pipeline.unscopedRest (Ix := Unit) (Name := ℕ) (U := UR sig nD τ) (Lvl := ℕ) spec1 c (atL0 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atL0 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hrest
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none]
    have hN : (Fin.last cfg1.N).val ≠ 0 := by rw [Fin.val_last]; have : cfg1.N = 128 := N_1; omega
    show L1.carried (atL0 m) c (Fin.last cfg1.N).val (Nat.le_of_lt_succ (Fin.last cfg1.N).isLt)
      ⊢ iprop((∃ r, prngReg c r) ∗ BI.emp
          ∗ Pipeline.scopedRest (Ix := Unit) (Name := ℕ) (U := UR sig nD τ) (Lvl := ℕ) (Val := Elt F) spec1 c)
    rw [L1.carried_pos (atL0 m) c _ _ hN]
    iintro ⟨⟨Hacc, Hothers⟩, Hgen⟩
    isplitl [Hgen]; · iexact Hgen
    isplitr; · iempintro
    iapply (show iprop(((∃ d, owns (c : Thread nD τ) L1.macc fullShare d)
        ∗ Pipeline.scopedRestBut (Ix := Unit) (Name := ℕ) (U := UR sig nD τ) (Lvl := ℕ) (Val := Elt F) spec1 c [cc1_scratch0]))
        ⊢ (Pipeline.scopedRest (Ix := Unit) (Name := ℕ) (U := UR sig nD τ) (Lvl := ℕ) (Val := Elt F) spec1 c : sProp 𝕄) from by
      rw [Pipeline.scopedRest_split_of_list spec1 c [cc1_scratch0] (by decide) (by decide)]
      simp only [L1.macc, owns_whole, bigSepL]
      exact BI.Entails.refl _)
    isplitl [Hacc]; · iexists _; iexact Hacc
    iexact Hothers
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atL0 m c) (atL1 m c) ((pdats m 1 c).arrAt · cfg1.N) (exit1_arr m c) (exit1_rest m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

/-! ## The frame -/

/-- Every weakly fair execution of the program terminates, nothing faulting, with its three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Gen.frame_cond (F := F) m emb₁ () noVariants noPairs noLevel (fun _ _ => rfl) ρ (leftBy m) (pdats m)
    (O₀ := 0) (G := fun _ => iprop(emp))
    (u₀ := initOf (Pipeline.cells cfgs cellOf_inj) (Pipeline.launchToks cfgs cellOf_inj))
    (hu₀ := ?_) (E := fun _ c => beside c) (hE0 := ?_) (hE2 := ?_)
    (R0 := reg0 m) (hpre0 := fun _ => .rfl) (hpost0 := fun c => ?_)
    (R1 := reg1 m) (hpre1 := fun c => ?_) (hpost1 := fun c => ?_)
  · -- the launch element is the pipelines' own; no further ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- at launch each core has its generator register and owes nothing
    refine Pipeline.initEach noPairs noLevel fun c => ?_
    iintro ⟨⟨-, Hdue, -, Hgen, -⟩, -⟩
    imodintro
    isplitl [Hgen]; · iexists _; iexact Hgen
    iexists ∅; iexact Hdue
  · -- and at the end it still owes nothing
    intro c; iintro ⟨-, Hdue⟩; iexact Hdue
  · rw [V1_eq]; exact .rfl
  · rw [V1_eq]; exact .rfl
  · rw [V2_eq]; exact .rfl

end Cert.Kernel.Seq

end
-- ==== Proof.KernelIdeal.L0Data.lean ====
/-
  The first layer as the first kernel region runs it: what the region holds from one grid point to the next.

  The grid is 4 x 8 x 4 and is walked in order, so point t handles row-block t / 32, column-block (t / 4) % 8 and
  reduction block t % 4. At every point the region hands the body a 128 x 128 block of x and one of w. The body keeps
  a 128 x 128 accumulator in a scratch buffer: at a point with t % 4 = 0 it first resets the accumulator to the
  splat of the start value, and at every point it replaces the accumulator by its entrywise maximum with the
  block's own maxima (`Gen.k0_pay2`). Only at a point with t % 4 = 3 does it write the output block, the
  accumulator clamped below (`Gen.k0_pay3`); at the other points the output's staging buffer is left as found and
  is not written back.

  So what the scratch holds after point n is determined by recursion on n (`accAt`), and that is all the region's
  invariant has to remember between points (`carried`): before the first point the scratch holds anything.
-/
import proofs.«119052_j32392643346992_1_alg».proof.Proof.Gen.KernelIdeal.Launch
import proofs.«119052_j32392643346992_1_alg».proof.Proof.Gen.KernelIdeal.Skeleton
import proofs.«119052_j32392643346992_1_alg».proof.Proof.Gen.KernelIdeal.Points
import Idealize.ShloMosaic.Lib.Pipeline.FrameBody
import Idealize.ShloMosaic.Lib.Pipeline.Frame

set_option maxRecDepth 16384

noncomputable section

namespace Cert.KernelIdeal.L0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each core's unscoped buffers hold when the region is entered
variable (V : (c : Dev nD) → (b : Ref sig .tc) → Buf (Elt F) ((c : Thread nD τ).loc b))

/-! ## The blocks the body is handed -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two tests the body makes on the reduction coordinate -/

/-- "This is the first reduction block": the body's first `scf.if`, as it computes it from the coordinates. -/
abbrev first (i : grid0.Coords) : Prop :=
  (Scalar.cmpi .ne (Scalar.extui (Scalar.cmpi .eq (BitVec.ofNat 32 (i 2).val) 0#32)) 0#32) = 1#1
theorem first_iff : ∀ t : Fin cfg0.N, first (grid0.coords t) ↔ t.val % 4 = 0 :=
  (by decide +kernel : ∀ t : Fin grid0.N, first (grid0.coords t) ↔ t.val % 4 = 0)

/-- "This is the last reduction block": the body's second `scf.if`. -/
abbrev last (i : grid0.Coords) : Prop := k0_cond2 i = 1#1
theorem last_iff : ∀ t : Fin cfg0.N, last (grid0.coords t) ↔ t.val % 4 = 3 :=
  (by decide +kernel : ∀ t : Fin grid0.N, last (grid0.coords t) ↔ t.val % 4 = 3)

/-! ## Where the windows are idle -/

theorem live_x : ∀ t : Fin cfg0.N, cfg0.idle 0 (grid0.coords t) = false := by decide +kernel
theorem live_w : ∀ t : Fin cfg0.N, cfg0.idle 1 (grid0.coords t) = false := by decide +kernel
/-- Away from the last reduction block the output window is idle and is not written back. -/
theorem idle_out : ∀ t : Fin cfg0.N, ¬last (grid0.coords t) → cfg0.idle 2 (grid0.coords t) = true := by decide +kernel
theorem noflush_out : ∀ t : Fin cfg0.N, ¬last (grid0.coords t) → (cfg0.win 2).flush t = false := by decide +kernel
/-- At the last reduction block it is live. -/
theorem live_out : ∀ t : Fin cfg0.N, last (grid0.coords t) → cfg0.idle 2 (grid0.coords t) = false := by decide +kernel

/-! ## The memrefs the body is called on -/

abbrev mx (t : Fin cfg0.N) : Memref sig .tc .vmem S128x128 .f32 := win0_0.stage (cfg0.slots t 0)
abbrev hmx (t : Fin cfg0.N) : (mx t).IsWhole := hstage0_0 ((cfg0.slots t 0).cast nbuf0_0)
abbrev mw (t : Fin cfg0.N) : Memref sig .tc .vmem S128x128 .f32 := win0_1.stage (cfg0.slots t 1)
abbrev hmw (t : Fin cfg0.N) : (mw t).IsWhole := hstage0_1 ((cfg0.slots t 1).cast nbuf0_1)
abbrev mo (t : Fin cfg0.N) : Memref sig .tc .vmem S128x128 .f32 := win0_2.stage (cfg0.slots t 2)
abbrev hmo (t : Fin cfg0.N) : (mo t).IsWhole := hstage0_2 ((cfg0.slots t 2).cast nbuf0_2)
/-- The accumulator: a whole scoped buffer of the kernel's own. -/
abbrev macc : Memref sig .tc .vmem S128x128 .f32 := Memref.whole cc0_scratch0

/-! ## What the accumulator holds after each point -/

/-- One step: the accumulator `s` with point t's block maxima folded in. -/
def step (c : Dev nD) (t : Fin cfg0.N) (s : Vec F S128x128 .f32) : Vec F S128x128 .f32 :=
  k0_pay2 (iblk V c 0 t) (iblk V c 1 t) s

/-- The accumulator after point n: at a first reduction block the step from the reset value, else the step from
    what the point before left. -/
def accAt (c : Dev nD) : (n : ℕ) → n < cfg0.N → Vec F S128x128 .f32
  | 0, hn => step V c ⟨0, hn⟩ k0_pay1
  | n + 1, hn => step V c ⟨n + 1, hn⟩ (if (n + 1) % 4 = 0 then k0_pay1 else accAt c n (Nat.lt_of_succ_lt hn))

theorem accAt_first (c : Dev nD) (t : Fin cfg0.N) (h : t.val % 4 = 0) :
    accAt V c t.val t.isLt = step V c t k0_pay1 := by
  obtain ⟨n, hn⟩ := t
  cases n with
  | zero => rfl
  | succ n => simp only [accAt]; rw [if_pos h]

theorem accAt_next (c : Dev nD) (t : Fin cfg0.N) (h : ¬t.val % 4 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The invariant between points -/

/-- The class's invariant with the accumulator's buffer split off the other scoped buffers, which stay unopened. -/
theorem PhiA_split (c : Dev nD) :
    (Pipeline.ΦA spec0 c : sProp 𝕄)
      = iprop(((∃ d, owns (c : Thread nD τ) macc fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [macc, owns_whole, bigSepL]
  rfl

/-- Before point n: at the start the class's invariant (the accumulator at anything); afterwards the accumulator at
    what the point before left, the other scoped buffers unopened, the generator register at some state. -/
def carried (c : Dev nD) : (n : ℕ) → n ≤ cfg0.N → sProp 𝕄
  | 0, _ => Pipeline.ΦA spec0 c
  | n + 1, hn => iprop((owns (c : Thread nD τ) macc fullShare (accAt V c n hn)
      ∗ Pipeline.scopedRestBut (Ix := Unit) (Name := ℕ) (U := UR sig nD τ) (Lvl := ℕ) (Val := Elt F) spec0 c [cc0_scratch0])
      ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop((owns (c : Thread nD τ) macc fullShare (accAt V c n hn)
      ∗ Pipeline.scopedRestBut (Ix := Unit) (Name := ℕ) (U := UR sig nD τ) (Lvl := ℕ) (Val := Elt F) spec0 c [cc0_scratch0])
      ∗ (∃ r, prngReg c r)) := rfl

theorem carried_pos (c : Dev nD) (n : ℕ) (h : n ≤ cfg0.N) (hz : n ≠ 0) :
    carried V c n h = iprop((owns (c : Thread nD τ) macc fullShare (accAt V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-! ## The region's proof data -/

/-- The arrays as the region finds them; after the body at point t the inputs' buffers at their blocks and the
    output's at the clamped accumulator; the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (accAt V c t.val t.isLt)
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_out (c : Dev nD) (t : Fin cfg0.N) : (dat V c).after 2 t = k0_pay3 (accAt V c t.val t.isLt) := by dsimp only [dat]

/-- Each input's current staging buffer holds its block at every point, fetched there or not. -/
theorem before_x (c : Dev nD) (t : Fin cfg0.N) (d) : (dat V c).before 0 t d = iblk V c 0 t :=
  ((dat V c).before_in_eq_fetched 0 rfl (fun _ => rfl) (fun _ _ _ => rfl)
      (fun t => by rw [after_x]; unfold Dat.blockOf iblk; rw [A_eq]) t d).trans
    (by unfold Dat.fetched Dat.blockOf iblk; rw [A_eq]; try rfl)
theorem before_w (c : Dev nD) (t : Fin cfg0.N) (d) : (dat V c).before 1 t d = iblk V c 1 t :=
  ((dat V c).before_in_eq_fetched 1 rfl (fun _ => rfl) (fun _ _ _ => rfl)
      (fun t => by rw [after_w]; unfold Dat.blockOf iblk; rw [A_eq]) t d).trans
    (by unfold Dat.fetched Dat.blockOf iblk; rw [A_eq]; try rfl)

end Cert.KernelIdeal.L0

end
-- ==== Proof.KernelIdeal.L0Body.lean ====
/-
  The first layer's kernel body, run once per case of its two tests.

  On whole 128 x 128 buffers holding a block x of the left operand, a block w of the right one, the output block's
  staging buffer and the accumulator, the body ends with the inputs as they were and:
  * at a first reduction block, whatever the accumulator held, the accumulator at the step from the reset value;
  * at a middle block, from the accumulator at s, the accumulator at the step from s;
  * at a last block the same step, and the output's buffer, whatever it held, at the new accumulator clamped below.
  In the first two cases the output's buffer is not touched.
-/
import proofs.«119052_j32392643346992_1_alg».proof.Proof.KernelIdeal.L0Data
import Idealize.ShloMosaic.Lib.Tactic
import Idealize.ShloMosaic.Lib.Pipeline.Value

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-block rectangle -/

/-- The whole-block rectangle sits at offset zero along each axis. -/
private theorem zero_offsets : (![0, 0] : Fin 2 → ℕ) = fun _ => 0 := funext fun a => by fin_cases a <;> rfl

/-- A load of a whole buffer through the whole-block rectangle reads the buffer's contents. -/
private theorem load_whole (a : Memref sig .tc .vmem S128x128 .f32) (h : a.IsWhole) (X : Vec F S128x128 .f32) :
    a.view.readAt (Elt F) (Rect.unit ![0, 0] S128x128.size inb_S128x128_S128x128_0_0).toLoadRect (h.unread X) = X := by
  rw [View.readAt_eq_ld, h.read_unread, View.ld_unit_zero (S := S128x128) zero_offsets]

/-- A store through the whole-block rectangle covers the buffer: made last, it leaves the buffer reading the stored
    value, whatever was stored before and whatever the buffer held. -/
private theorem read_store_whole (a : Memref sig .tc .vmem S128x128 .f32) (f : a.view.ty.Contents (Elt F))
    (v : Vec F S128x128 .f32) (L : List (View.Piece (Elt F) S128x128 .f32)) :
    a.view.read (Elt F) (a.view.writes (Elt F) f
        ((⟨Rect.unit ![0, 0] S128x128.size inb_S128x128_S128x128_0_0, v⟩ : View.Piece (Elt F) S128x128 .f32) :: L)) = v := by
  rw [View.read_writes_eq_canon _ _ _ (fun y => ⟨_, List.mem_cons.mpr (Or.inl rfl), View.mem_set_unit_zero zero_offsets inb_S128x128_S128x128_0_0 y⟩),
    View.canon_cons_unit_zero (S := S128x128) zero_offsets]

/-! ## The body's three runs -/

/-- A first reduction block that is not also the last. -/
theorem run_first (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : first i) (hl : ¬last i) (x w o : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ (∃ d, owns (c : Thread nD τ) a6 fullShare d)
        ∗ (iprop(owns (c : Thread nD τ) a3 fullShare x ∗ owns (c : Thread nD τ) a4 fullShare w ∗ owns (c : Thread nD τ) a5 fullShare o
              ∗ owns (c : Thread nD τ) a6 fullShare (k0_pay2 x w k0_pay1)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%f2, %hf2, H2⟩, ⟨%d, %f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's last store covers it; the value loaded after the reset store is the reset value
  rw [read_store_whole]
  sl_unfold_run_names
  rw [load_whole, load_whole, View.readCov_unit_zero (S := S128x128) _ zero_offsets]

/-- A middle reduction block. -/
theorem run_mid (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : ¬last i) (x w o s : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
              ∗ owns (c : Thread nD τ) a6 fullShare (k0_pay2 x w s)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's one store covers it; each load read its buffer's contents
  rw [read_store_whole, load_whole, load_whole, load_whole]

/-- A last reduction block that is not also the first. -/
theorem run_last (c : Dev nD) (i : grid0.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : last i) (x w s : Vec F S128x128 .f32) (E : Set ℕ) (K : PUnit → sProp 𝕄) :
    iprop(owns (c : Thread nD τ) a3 fullShare x ∗ owns (c : Thread nD τ) a4 fullShare w ∗ (∃ o, owns (c : Thread nD τ) a5 fullShare o)
        ∗ owns (c : Thread nD τ) a6 fullShare s
        ∗ (iprop(owns (c : Thread nD τ) a3 fullShare x ∗ owns (c : Thread nD τ) a4 fullShare w ∗ owns (c : Thread nD τ) a5 fullShare (k0_pay3 (k0_pay2 x w s))
              ∗ owns (c : Thread nD τ) a6 fullShare (k0_pay2 x w s)) -∗ K ⟨⟩))
      ⊢ wp frame (wpE (defs₀ (F := F)) Variants.none c none) E (cc0__morpho_relu_kernel i a3 h3 a4 h4 a5 h5 a6 h6) K := by
  simp only [cc0__morpho_relu_kernel_eq_skeleton]; unfold cc0__morpho_relu_kernel_skel
  unfold owns
  iintro ⟨⟨%f0, %hf0, H0⟩, ⟨%f1, %hf1, H1⟩, ⟨%o, %f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    swap
    · iexact H2
    ipureintro
    -- the output's one store covers it; the accumulator loaded after its store reads the stored step
    rw [read_store_whole]
    sl_unfold_run_names
    rw [View.readCov_unit_zero (S := S128x128) _ zero_offsets, load_whole, load_whole, load_whole]
  iexists _; isplitr
  swap
  · iexact H3
  ipureintro
  -- the accumulator's one store covers it; each load read its buffer's contents
  sl_unfold_run_names
  rw [read_store_whole, load_whole, load_whole, load_whole]

end Cert.KernelIdeal.L0

end
-- ==== Proof.KernelIdeal.L0Point.lean ====
/-
  The first layer's region, one grid point at a time: from what the region holds before point t the body runs to
  what it holds before point t + 1.

  The body is handed the invariant (`carried`: the accumulator at what the point before left, or at anything before
  the first point), the core's dues (none), and the three windows' current staging buffers: the two inputs at their
  blocks, the output's at whatever the schedule left there. Which of the three runs applies is read off t % 4: the
  first reduction block resets the accumulator, the last one writes the output block, the ones between only fold.
  Away from the last block the output window is idle and its buffer goes back untouched.
-/
import proofs.«119052_j32392643346992_1_alg».proof.Proof.KernelIdeal.L0Body

set_option maxRecDepth 16384

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one. -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the accumulator's buffer holds something: at the start by the class's invariant, afterwards
    what the point before left. -/
private theorem carried_some (c : Dev nD) (n : ℕ) (h : n ≤ cfg0.N) :
    carried V c n h ⊢ iprop(((∃ d, owns (c : Thread nD τ) macc fullShare d)
      ∗ Pipeline.scopedRestBut (Ix := Unit) (Name := ℕ) (U := UR sig nD τ) (Lvl := ℕ) (Val := Elt F) spec0 c [cc0_scratch0])
      ∗ (∃ r, prngReg c r)) := by
  by_cases hz : n = 0
  · rw [carried_zero V c n h hz, PhiA_split]
  · rw [carried_pos V c n h hz]
    iintro ⟨⟨HS, HR⟩, Hg⟩
    isplitr [Hg]
    · isplitl [HS]
      · iexists _; iexact HS
      iexact HR
    iexact Hg

/-- The body at any point: the case is read off t % 4, and that case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  -- the inputs' buffers hold their blocks, before the body and after it
  simp only [before_x, before_w]
  rw [show (dat V c).leavesExact 0 t = owns (c : Thread nD τ) (mx t) fullShare (iblk V c 0 t) from by
      unfold Dat.leavesExact; rw [live_x t, after_x]]
  rw [show (dat V c).leavesExact 1 t = owns (c : Thread nD τ) (mw t) fullShare (iblk V c 1 t) from by
      unfold Dat.leavesExact; rw [live_w t, after_w]]
  -- nothing is owed, before or after; the invariant after the point is the accumulator at accAt t
  rw [show (dat V c).owesAt () t.succ = (dat V c).owesAt () t.castSucc from rfl]
  rw [show (dat V c).Φ t.succ = carried V c (t.val + 1) t.isLt from rfl, carried_succ, carried_castSucc]
  by_cases h1 : t.val % 4 = 3
  · -- a last block (so not a first one): the step from what the point before left, and the output block written
    have h0 : ¬t.val % 4 = 0 := by omega
    have hz : t.val ≠ 0 := fun h => h0 (by rw [h])
    have hf : ¬first (grid0.coords t) := fun h => h0 ((first_iff t).mp h)
    have hl : last (grid0.coords t) := (last_iff t).mpr h1
    rw [show (dat V c).leavesExact 2 t = owns (c : Thread nD τ) (mo t) fullShare (k0_pay3 (accAt V c t.val t.isLt)) from by
      unfold Dat.leavesExact; rw [live_out t hl, after_out]]
    rw [accAt_next V c t h0, carried_pos V c _ _ hz]; unfold step
    iintro ⟨⟨⟨HS, HR⟩, Hg⟩, Ho, ⟨%dx, Hx⟩, ⟨%dw, Hw⟩, ⟨%d2, Hout⟩⟩
    iapply (run_last c (grid0.coords t) (mx t) (hmx t) (mw t) (hmw t) (mo t) (hmo t) macc (Memref.isWhole_whole _) hf hl
      (iblk V c 0 t) (iblk V c 1 t) (accAt V c (t.val - 1) (Nat.lt_of_le_of_lt (Nat.sub_le _ _) t.isLt)) Set.univ _)
    isplitl [Hx]; · iexact Hx
    isplitl [Hw]; · iexact Hw
    isplitl [Hout]; · iexists _; iexact Hout
    isplitl [HS]; · iexact HS
    iintro ⟨Hx, Hw, Hout, HS⟩
    isplitl [HS HR Hg]
    · isplitr [Hg]
      · isplitl [HS]; · iexact HS
        iexact HR
      iexact Hg
    isplitl [Ho]; · iexact Ho
    isplitl [Hx]; · iexact Hx
    isplitl [Hw]; · iexact Hw
    iexact Hout
  · -- away from the last block the output's buffer is idle: it goes back as it came
    have hl : ¬last (grid0.coords t) := fun h => h1 ((last_iff t).mp h)
    rw [Dat.leavesExact_idle (dat V c) 2 t (idle_out t hl) (noflush_out t hl)]
    by_cases h0 : t.val % 4 = 0
    · -- a first block: whatever the accumulator held, the step from the reset value
      have hf : first (grid0.coords t) := (first_iff t).mpr h0
      rw [accAt_first V c t h0]; unfold step
      refine (sep_mono (carried_some V c t.val _) .rfl).trans ?_
      iintro ⟨⟨⟨HS, HR⟩, Hg⟩, Ho, ⟨%dx, Hx⟩, ⟨%dw, Hw⟩, ⟨%d2, Hout⟩⟩
      iapply (run_first c (grid0.coords t) (mx t) (hmx t) (mw t) (hmw t) (mo t) (hmo t) macc (Memref.isWhole_whole _) hf hl
        (iblk V c 0 t) (iblk V c 1 t) ((dat V c).before 2 t d2) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout
    · -- a middle block: the step from what the point before left
      have hz : t.val ≠ 0 := fun h => h0 (by rw [h])
      have hf : ¬first (grid0.coords t) := fun h => h0 ((first_iff t).mp h)
      rw [accAt_next V c t h0, carried_pos V c _ _ hz]; unfold step
      iintro ⟨⟨⟨HS, HR⟩, Hg⟩, Ho, ⟨%dx, Hx⟩, ⟨%dw, Hw⟩, ⟨%d2, Hout⟩⟩
      iapply (run_mid c (grid0.coords t) (mx t) (hmx t) (mw t) (hmw t) (mo t) (hmo t) macc (Memref.isWhole_whole _) hf hl
        (iblk V c 0 t) (iblk V c 1 t) ((dat V c).before 2 t d2)
        (accAt V c (t.val - 1) (Nat.lt_of_le_of_lt (Nat.sub_le _ _) t.isLt)) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.L0

end
-- ==== Proof.KernelIdeal.L1Data.lean ====
/-
  The second layer as the second kernel region runs it: what the region holds from one grid point to the next.

  The grid is 4 x 4 x 8 and is walked in order, so point t handles row-block t / 32, column-block (t / 8) % 4 and
  reduction block t % 8. At every point the region hands the body a 128 x 128 block of x and one of w. The body keeps
  a 128 x 128 accumulator in a scratch buffer: at a point with t % 8 = 0 it first resets the accumulator to the
  splat of the start value, and at every point it replaces the accumulator by its entrywise maximum with the
  block's own maxima (`Gen.k1_pay2`). Only at a point with t % 8 = 7 does it write the output block, the
  accumulator clamped below (`Gen.k1_pay3`); at the other points the output's staging buffer is left as found and
  is not written back.

  So what the scratch holds after point n is determined by recursion on n (`accAt`), and that is all the region's
  invariant has to remember between points (`carried`): before the first point the scratch holds anything.
-/
import proofs.«119052_j32392643346992_1_alg».proof.Proof.Gen.KernelIdeal.Launch
import proofs.«119052_j32392643346992_1_alg».proof.Proof.Gen.KernelIdeal.Skeleton
import proofs.«119052_j32392643346992_1_alg».proof.Proof.Gen.KernelIdeal.Points
import Idealize.ShloMosaic.Lib.Pipeline.FrameBody
import Idealize.ShloMosaic.Lib.Pipeline.Frame

set_option maxRecDepth 16384

noncomputable section

namespace Cert.KernelIdeal.L1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each core's unscoped buffers hold when the region is entered
variable (V : (c : Dev nD) → (b : Ref sig .tc) → Buf (Elt F) ((c : Thread nD τ).loc b))

/-! ## The blocks the body is handed -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two tests the body makes on the reduction coordinate -/

/-- "This is the first reduction block": the body's first `scf.if`, as it computes it from the coordinates. -/
abbrev first (i : grid1.Coords) : Prop :=
  (Scalar.cmpi .ne (Scalar.extui (Scalar.cmpi .eq (BitVec.ofNat 32 (i 2).val) 0#32)) 0#32) = 1#1
theorem first_iff : ∀ t : Fin cfg1.N, first (grid1.coords t) ↔ t.val % 8 = 0 :=
  (by decide +kernel : ∀ t : Fin grid1.N, first (grid1.coords t) ↔ t.val % 8 = 0)

/-- "This is the last reduction block": the body's second `scf.if`. -/
abbrev last (i : grid1.Coords) : Prop := k1_cond2 i = 1#1
theorem last_iff : ∀ t : Fin cfg1.N, last (grid1.coords t) ↔ t.val % 8 = 7 :=
  (by decide +kernel : ∀ t : Fin grid1.N, last (grid1.coords t) ↔ t.val % 8 = 7)

/-! ## Where the windows are idle -/

theorem live_x : ∀ t : Fin cfg1.N, cfg1.idle 0 (grid1.coords t) = false := by decide +kernel
theorem live_w : ∀ t : Fin cfg1.N, cfg1.idle 1 (grid1.coords t) = false := by decide +kernel
/-- Away from the last reduction block the output window is idle and is not written back. -/
theorem idle_out : ∀ t : Fin cfg1.N, ¬last (grid1.coords t) → cfg1.idle 2 (grid1.coords t) = true := by decide +kernel
theorem noflush_out : ∀ t : Fin cfg1.N, ¬last (grid1.coords t) → (cfg1.win 2).flush t = false := by decide +kernel
/-- At the last reduction block it is live. -/
theorem live_out : ∀ t : Fin cfg1.N, last (grid1.coords t) → cfg1.idle 2 (grid1.coords t) = false := by decide +kernel

/-! ## The memrefs the body is called on -/

abbrev mx (t : Fin cfg1.N) : Memref sig .tc .vmem S128x128 .f32 := win1_0.stage (cfg1.slots t 0)
abbrev hmx (t : Fin cfg1.N) : (mx t).IsWhole := hstage1_0 ((cfg1.slots t 0).cast nbuf1_0)
abbrev mw (t : Fin cfg1.N) : Memref sig .tc .vmem S128x128 .f32 := win1_1.stage (cfg1.slots t 1)
abbrev hmw (t : Fin cfg1.N) : (mw t).IsWhole := hstage1_1 ((cfg1.slots t 1).cast nbuf1_1)
abbrev mo (t : Fin cfg1.N) : Memref sig .tc .vmem S128x128 .f32 := win1_2.stage (cfg1.slots t 2)
abbrev hmo (t : Fin cfg1.N) : (mo t).IsWhole := hstage1_2 ((cfg1.slots t 2).cast nbuf1_2)
/-- The accumulator: a whole scoped buffer of the kernel's own. -/
abbrev macc : Memref sig .tc .vmem S128x128 .f32 := Memref.whole cc1_scratch0

/-! ## What the accumulator holds after each point -/

/-- One step: the accumulator `s` with point t's block maxima folded in. -/
def step (c : Dev nD) (t : Fin cfg1.N) (s : Vec F S128x128 .f32) : Vec F S128x128 .f32 :=
  k1_pay2 (iblk V c 0 t) (iblk V c 1 t) s

/-- The accumulator after point n: at a first reduction block the step from the reset value, else the step from
    what the point before left. -/
def accAt (c : Dev nD) : (n : ℕ) → n < cfg1.N → Vec F S128x128 .f32
  | 0, hn => step V c ⟨0, hn⟩ k1_pay1
  | n + 1, hn => step V c ⟨n + 1, hn⟩ (if (n + 1) % 8 = 0 then k1_pay1 else accAt c n (Nat.lt_of_succ_lt hn))

theorem accAt_first (c : Dev nD) (t : Fin cfg1.N) (h : t.val % 8 = 0) :
    accAt V c t.val t.isLt = step V c t k1_pay1 := by
  obtain ⟨n, hn⟩ := t
  cases n with
  | zero => rfl
  | succ n => simp only [accAt]; rw [if_pos h]

theorem accAt_next (c : Dev nD) (t : Fin cfg1.N) (h : ¬t.val % 8 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The invariant between points -/

/-- The class's invariant with the accumulator's buffer split off the other scoped buffers, which stay unopened. -/
theorem PhiA_split (c : Dev nD) :
    (Pipeline.ΦA spec1 c : sProp 𝕄)
      = iprop(((∃ d, owns (c : Thread nD τ) macc fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [macc, owns_whole, bigSepL]
  rfl

/-- Before point n: at the start the class's invariant (the accumulator at anything); afterwards the accumulator at
    what the point before left, the other scoped buffers unopened, the generator register at some state. -/
def carried (c : Dev nD) : (n : ℕ) → n ≤ cfg1.N → sProp 𝕄
  | 0, _ => Pipeline.ΦA spec1 c
  | n + 1, hn => iprop((owns (c : Thread nD τ) macc fullShare (accAt V c n hn)
      ∗ Pipeline.scopedRestBut (Ix := Unit) (Name := ℕ) (U := UR sig nD τ) (Lvl := ℕ) (Val := Elt F) spec1 c [cc1_scratch0])
      ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop((owns (c : Thread nD τ) macc fullShare (accAt V c n hn)
      ∗ Pipeline.scopedRestBut (Ix := Unit) (Name := ℕ) (U := UR sig nD τ) (Lvl := ℕ) (Val := Elt F) spec1 c [cc1_scratch0])
      ∗ (∃ r, prngReg c r)) := rfl

theorem carried_pos (c : Dev nD) (n : ℕ) (h : n ≤ cfg1.N) (hz : n ≠ 0) :
    carried V c n h = iprop((owns (c : Thread nD τ) macc fullShare (accAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The region's proof data -/

/-- The arrays as the region finds them; after the body at point t the inputs' buffers at their blocks and the
    output's at the clamped accumulator; the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (accAt V c t.val t.isLt)
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_out (c : Dev nD) (t : Fin cfg1.N) : (dat V c).after 2 t = k1_pay3 (accAt V c t.val t.isLt) := by dsimp only [dat]

/-- Each input's current staging buffer holds its block at every point, fetched there or not. -/
theorem before_x (c : Dev nD) (t : Fin cfg1.N) (d) : (dat V c).before 0 t d = iblk V c 0 t :=
  ((dat V c).before_in_eq_fetched 0 rfl (fun _ => rfl) (fun _ _ _ => rfl)
      (fun t => by rw [after_x]; unfold Dat.blockOf iblk; rw [A_eq]) t d).trans
    (by unfold Dat.fetched Dat.blockOf iblk; rw [A_eq]; try rfl)
theorem before_w (c : Dev nD) (t : Fin cfg1.N) (d) : (dat V c).before 1 t d = iblk V c 1 t :=
  ((dat V c).before_in_eq_fetched 1 rfl (fun _ => rfl) (fun _ _ _ => rfl)
      (fun t => by rw [after_w]; unfold Dat.blockOf iblk; rw [A_eq]) t d).trans
    (by unfold Dat.fetched Dat.blockOf iblk; rw [A_eq]; try rfl)

end Cert.KernelIdeal.L1

end
-- ==== Proof.KernelIdeal.L1Body.lean ====
/-
  The second layer's kernel body, run once per case of its two tests.

  On whole 128 x 128 buffers holding a block x of the left operand, a block w of the right one, the output block's
  staging buffer and the accumulator, the body ends with the inputs as they were and:
  * at a first reduction block, whatever the accumulator held, the accumulator at the step from the reset value;
  * at a middle block, from the accumulator at s, the accumulator at the step from s;
  * at a last block the same step, and the output's buffer, whatever it held, at the new accumulator clamped below.
  In the first two cases the output's buffer is not touched.
-/
import proofs.«119052_j32392643346992_1_alg».proof.Proof.KernelIdeal.L1Data
import Idealize.ShloMosaic.Lib.Tactic
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-block rectangle -/

/-- The whole-block rectangle sits at offset zero along each axis. -/
private theorem zero_offsets : (![0, 0] : Fin 2 → ℕ) = fun _ => 0 := funext fun a => by fin_cases a <;> rfl

/-- A load of a whole buffer through the whole-block rectangle reads the buffer's contents. -/
private theorem load_whole (a : Memref sig .tc .vmem S128x128 .f32) (h : a.IsWhole) (X : Vec F S128x128 .f32) :
    a.view.readAt (Elt F) (Rect.unit ![0, 0] S128x128.size inb_S128x128_S128x128_0_0).toLoadRect (h.unread X) = X := by
  rw [View.readAt_eq_ld, h.read_unread, View.ld_unit_zero (S := S128x128) zero_offsets]

/-- A store through the whole-block rectangle covers the buffer: made last, it leaves the buffer reading the stored
    value, whatever was stored before and whatever the buffer held. -/
private theorem read_store_whole (a : Memref sig .tc .vmem S128x128 .f32) (f : a.view.ty.Contents (Elt F))
    (v : Vec F S128x128 .f32) (L : List (View.Piece (Elt F) S128x128 .f32)) :
    a.view.read (Elt F) (a.view.writes (Elt F) f
        ((⟨Rect.unit ![0, 0] S128x128.size inb_S128x128_S128x128_0_0, v⟩ : View.Piece (Elt F) S128x128 .f32) :: L)) = v := by
  rw [View.read_writes_eq_canon _ _ _ (fun y => ⟨_, List.mem_cons.mpr (Or.inl rfl), View.mem_set_unit_zero zero_offsets inb_S128x128_S128x128_0_0 y⟩),
    View.canon_cons_unit_zero (S := S128x128) zero_offsets]

/-! ## The body's three runs -/

/-- A first reduction block that is not also the last. -/
theorem run_first (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : first i) (hl : ¬last i) (x w o : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ (∃ d, owns (c : Thread nD τ) a6 fullShare d)
        ∗ (iprop(owns (c : Thread nD τ) a3 fullShare x ∗ owns (c : Thread nD τ) a4 fullShare w ∗ owns (c : Thread nD τ) a5 fullShare o
              ∗ owns (c : Thread nD τ) a6 fullShare (k1_pay2 x w k1_pay1)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%f2, %hf2, H2⟩, ⟨%d, %f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's last store covers it; the value loaded after the reset store is the reset value
  rw [read_store_whole]
  sl_unfold_run_names
  rw [load_whole, load_whole, View.readCov_unit_zero (S := S128x128) _ zero_offsets]

/-- A middle reduction block. -/
theorem run_mid (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : ¬last i) (x w o s : Vec F S128x128 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
              ∗ owns (c : Thread nD τ) a6 fullShare (k1_pay2 x w s)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs and the output's buffer come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    · ipureintro; exact h5.read_unread _
    iexact H2
  iexists _; isplitr
  swap
  · iexact H3
  ipureintro
  -- the accumulator's one store covers it; each load read its buffer's contents
  rw [read_store_whole, load_whole, load_whole, load_whole]

/-- A last reduction block that is not also the first. -/
theorem run_last (c : Dev nD) (i : grid1.Coords) (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (hf : ¬first i) (hl : last i) (x w s : Vec F S128x128 .f32) (E : Set ℕ) (K : PUnit → sProp 𝕄) :
    iprop(owns (c : Thread nD τ) a3 fullShare x ∗ owns (c : Thread nD τ) a4 fullShare w ∗ (∃ o, owns (c : Thread nD τ) a5 fullShare o)
        ∗ owns (c : Thread nD τ) a6 fullShare s
        ∗ (iprop(owns (c : Thread nD τ) a3 fullShare x ∗ owns (c : Thread nD τ) a4 fullShare w ∗ owns (c : Thread nD τ) a5 fullShare (k1_pay3 (k1_pay2 x w s))
              ∗ owns (c : Thread nD τ) a6 fullShare (k1_pay2 x w s)) -∗ K ⟨⟩))
      ⊢ wp frame (wpE (defs₀ (F := F)) Variants.none c none) E (cc1__morpho_relu_kernel i a3 h3 a4 h4 a5 h5 a6 h6) K := by
  simp only [cc1__morpho_relu_kernel_eq_skeleton]; unfold cc1__morpho_relu_kernel_skel
  unfold owns
  iintro ⟨⟨%f0, %hf0, H0⟩, ⟨%f1, %hf1, H1⟩, ⟨%o, %f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hf | exact hl)
  sl_step
  iapply Hk
  -- the inputs come back as they were
  isplitl [H0]
  · iexists _; isplitr
    · ipureintro; exact h3.read_unread _
    iexact H0
  isplitl [H1]
  · iexists _; isplitr
    · ipureintro; exact h4.read_unread _
    iexact H1
  isplitl [H2]
  · iexists _; isplitr
    swap
    · iexact H2
    ipureintro
    -- the output's one store covers it; the accumulator loaded after its store reads the stored step
    rw [read_store_whole]
    sl_unfold_run_names
    rw [View.readCov_unit_zero (S := S128x128) _ zero_offsets, load_whole, load_whole, load_whole]
  iexists _; isplitr
  swap
  · iexact H3
  ipureintro
  -- the accumulator's one store covers it; each load read its buffer's contents
  sl_unfold_run_names
  rw [read_store_whole, load_whole, load_whole, load_whole]

end Cert.KernelIdeal.L1

end
-- ==== Proof.KernelIdeal.L1Point.lean ====
/-
  The second layer's region, one grid point at a time: from what the region holds before point t the body runs to
  what it holds before point t + 1.

  The body is handed the invariant (`carried`: the accumulator at what the point before left, or at anything before
  the first point), the core's dues (none), and the three windows' current staging buffers: the two inputs at their
  blocks, the output's at whatever the schedule left there. Which of the three runs applies is read off t % 8: the
  first reduction block resets the accumulator, the last one writes the output block, the ones between only fold.
  Away from the last block the output window is idle and its buffer goes back untouched.
-/
import proofs.«119052_j32392643346992_1_alg».proof.Proof.KernelIdeal.L1Body

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one. -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mo t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- Before any point the accumulator's buffer holds something: at the start by the class's invariant, afterwards
    what the point before left. -/
private theorem carried_some (c : Dev nD) (n : ℕ) (h : n ≤ cfg1.N) :
    carried V c n h ⊢ iprop(((∃ d, owns (c : Thread nD τ) macc fullShare d)
      ∗ Pipeline.scopedRestBut (Ix := Unit) (Name := ℕ) (U := UR sig nD τ) (Lvl := ℕ) (Val := Elt F) spec1 c [cc1_scratch0])
      ∗ (∃ r, prngReg c r)) := by
  by_cases hz : n = 0
  · rw [carried_zero V c n h hz, PhiA_split]
  · rw [carried_pos V c n h hz]
    iintro ⟨⟨HS, HR⟩, Hg⟩
    isplitr [Hg]
    · isplitl [HS]
      · iexists _; iexact HS
      iexact HR
    iexact Hg

/-- The body at any point: the case is read off t % 8, and that case's run applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  -- the inputs' buffers hold their blocks, before the body and after it
  simp only [before_x, before_w]
  rw [show (dat V c).leavesExact 0 t = owns (c : Thread nD τ) (mx t) fullShare (iblk V c 0 t) from by
      unfold Dat.leavesExact; rw [live_x t, after_x]]
  rw [show (dat V c).leavesExact 1 t = owns (c : Thread nD τ) (mw t) fullShare (iblk V c 1 t) from by
      unfold Dat.leavesExact; rw [live_w t, after_w]]
  -- nothing is owed, before or after; the invariant after the point is the accumulator at accAt t
  rw [show (dat V c).owesAt () t.succ = (dat V c).owesAt () t.castSucc from rfl]
  rw [show (dat V c).Φ t.succ = carried V c (t.val + 1) t.isLt from rfl, carried_succ, carried_castSucc]
  by_cases h1 : t.val % 8 = 7
  · -- a last block (so not a first one): the step from what the point before left, and the output block written
    have h0 : ¬t.val % 8 = 0 := by omega
    have hz : t.val ≠ 0 := fun h => h0 (by rw [h])
    have hf : ¬first (grid1.coords t) := fun h => h0 ((first_iff t).mp h)
    have hl : last (grid1.coords t) := (last_iff t).mpr h1
    rw [show (dat V c).leavesExact 2 t = owns (c : Thread nD τ) (mo t) fullShare (k1_pay3 (accAt V c t.val t.isLt)) from by
      unfold Dat.leavesExact; rw [live_out t hl, after_out]]
    rw [accAt_next V c t h0, carried_pos V c _ _ hz]; unfold step
    iintro ⟨⟨⟨HS, HR⟩, Hg⟩, Ho, ⟨%dx, Hx⟩, ⟨%dw, Hw⟩, ⟨%d2, Hout⟩⟩
    iapply (run_last c (grid1.coords t) (mx t) (hmx t) (mw t) (hmw t) (mo t) (hmo t) macc (Memref.isWhole_whole _) hf hl
      (iblk V c 0 t) (iblk V c 1 t) (accAt V c (t.val - 1) (Nat.lt_of_le_of_lt (Nat.sub_le _ _) t.isLt)) Set.univ _)
    isplitl [Hx]; · iexact Hx
    isplitl [Hw]; · iexact Hw
    isplitl [Hout]; · iexists _; iexact Hout
    isplitl [HS]; · iexact HS
    iintro ⟨Hx, Hw, Hout, HS⟩
    isplitl [HS HR Hg]
    · isplitr [Hg]
      · isplitl [HS]; · iexact HS
        iexact HR
      iexact Hg
    isplitl [Ho]; · iexact Ho
    isplitl [Hx]; · iexact Hx
    isplitl [Hw]; · iexact Hw
    iexact Hout
  · -- away from the last block the output's buffer is idle: it goes back as it came
    have hl : ¬last (grid1.coords t) := fun h => h1 ((last_iff t).mp h)
    rw [Dat.leavesExact_idle (dat V c) 2 t (idle_out t hl) (noflush_out t hl)]
    by_cases h0 : t.val % 8 = 0
    · -- a first block: whatever the accumulator held, the step from the reset value
      have hf : first (grid1.coords t) := (first_iff t).mpr h0
      rw [accAt_first V c t h0]; unfold step
      refine (sep_mono (carried_some V c t.val _) .rfl).trans ?_
      iintro ⟨⟨⟨HS, HR⟩, Hg⟩, Ho, ⟨%dx, Hx⟩, ⟨%dw, Hw⟩, ⟨%d2, Hout⟩⟩
      iapply (run_first c (grid1.coords t) (mx t) (hmx t) (mw t) (hmw t) (mo t) (hmo t) macc (Memref.isWhole_whole _) hf hl
        (iblk V c 0 t) (iblk V c 1 t) ((dat V c).before 2 t d2) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout
    · -- a middle block: the step from what the point before left
      have hz : t.val ≠ 0 := fun h => h0 (by rw [h])
      have hf : ¬first (grid1.coords t) := fun h => h0 ((first_iff t).mp h)
      rw [accAt_next V c t h0, carried_pos V c _ _ hz]; unfold step
      iintro ⟨⟨⟨HS, HR⟩, Hg⟩, Ho, ⟨%dx, Hx⟩, ⟨%dw, Hw⟩, ⟨%d2, Hout⟩⟩
      iapply (run_mid c (grid1.coords t) (mx t) (hmx t) (mw t) (hmw t) (mo t) (hmo t) macc (Memref.isWhole_whole _) hf hl
        (iblk V c 0 t) (iblk V c 1 t) ((dat V c).before 2 t d2)
        (accAt V c (t.val - 1) (Nat.lt_of_le_of_lt (Nat.sub_le _ _) t.isLt)) Set.univ _)
      isplitl [Hx]; · iexact Hx
      isplitl [Hw]; · iexact Hw
      isplitl [Hout]; · iexact Hout
      isplitl [HS]; · iexact HS
      iintro ⟨Hx, Hw, Hout, HS⟩
      isplitl [HS HR Hg]
      · isplitr [Hg]
        · isplitl [HS]; · iexact HS
          iexact HR
        iexact Hg
      isplitl [Ho]; · iexact Ho
      isplitl [Hx]; · iexact Hx
      isplitl [Hw]; · iexact Hw
      iexists _; iexact Hout

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.L1

end
-- ==== Proof.KernelIdeal.Regions.lean ====
/-
  The two layers in sequence: each kernel region as one step of the program, and the program's frame.

  Between two steps a core holds every unscoped buffer at known contents. The first region reads x and w1 and may
  change only the intermediate array h; the second reads h and w2 and may change only the result y. So the contents
  after the first region are the launch contents with h replaced by what that region's write-backs leave
  (`afterL0`), and after the second those with y replaced likewise (`afterL1`). Each region is entered with its
  arrays split out of the unscoped buffers and left with them put back at the updated contents; the generator
  register and the core's dues (none) ride along; the accumulator and the other scoped buffers enter the region's
  invariant at anything and are forgotten again at its end.
-/
import proofs.«119052_j32392643346992_1_alg».proof.Proof.KernelIdeal.L0Point
import proofs.«119052_j32392643346992_1_alg».proof.Proof.KernelIdeal.L1Point
import proofs.«119052_j32392643346992_1_alg».proof.Proof.Gen.KernelIdeal.Regions
import Idealize.ShloMosaic.Lib.Pipeline.RegionsLoop

set_option maxRecDepth 16384

noncomputable section

namespace Cert.KernelIdeal.Seq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- At launch, read at a TensorCore reference. -/
abbrev atLaunch (c : Dev nD) (b : Ref sig .tc) : Buf (Elt F) ((c : Thread nD τ).loc b) := Gen.V0 m c b

/-- After the first region: the launch contents with the intermediate array at what that region leaves. -/
def afterL0 (c : Dev nD) : Valuation τ sig (Elt F) :=
  Function.update (Gen.V0 m c) main_v0 (((L0.dat (atLaunch m) c).arrAt 2 cfg0.N : Buf (Elt F) ((c : Thread nD τ).loc main_v0)))
abbrev atL0 (c : Dev nD) (b : Ref sig .tc) : Buf (Elt F) ((c : Thread nD τ).loc b) := afterL0 m c b

/-- After the second region: those with the result array at what the second region leaves. -/
def afterL1 (c : Dev nD) : Valuation τ sig (Elt F) :=
  Function.update (afterL0 m c) main_v1 (((L1.dat (atL0 m) c).arrAt 2 cfg1.N : Buf (Elt F) ((c : Thread nD τ).loc main_v1)))
abbrev atL1 (c : Dev nD) (b : Ref sig .tc) : Buf (Elt F) ((c : Thread nD τ).loc b) := afterL1 m c b

/-- What each region leaves in the buffers it may change, in the form the program's host-side frame asks for. -/
def leftBy : Gen.Outs (F := F) := fun J r c =>
  match J with
  | 1 => afterL0 m c r
  | _ => afterL1 m c r

theorem V1_eq (c : Dev nD) : Gen.V1 m (leftBy m) c = afterL0 m c := by
  show Function.update (Gen.V0 m c) main_v0 (afterL0 m c main_v0) = afterL0 m c
  unfold afterL0; rw [Function.update_self]

theorem V2_eq (c : Dev nD) : Gen.V2 m (leftBy m) c = afterL1 m c := by
  show Function.update (Gen.V1 m (leftBy m) c) main_v1 (afterL1 m c main_v1) = afterL1 m c
  rw [V1_eq]; unfold afterL1; rw [Function.update_self]

/-! ## The two regions' proof data, and what rides beside the buffers -/

/-- Every pipeline's proof data, each at the contents its region is entered with. -/
def pdats : (p : Fin 2) → (c : Dev nD) → Dat τ (Elt F) Unit ℕ (UR sig nD τ) ℕ (Pipeline.pin (pcfgs (F := F)) Gen.adm p) c
  | ⟨0, _⟩ => fun c => L0.dat (atLaunch m) c
  | ⟨1, _⟩ => fun c => L1.dat (atL0 m) c

abbrev noVariants : Variants := Variants.none
/-- No core owes another anything: no level is assigned. -/
abbrev noPairs : GSem nD τ sig → Finset Unit := fun _ => ∅
abbrev noLevel : GSem nD τ sig → Unit → ℕ := fun _ _ => 0

/-- Beside the buffers at every boundary: the generator register at some state, and the core owing nothing. -/
abbrev beside (c : Dev nD) : sProp 𝕄 := iprop((∃ r, prngReg c r) ∗ ∃ W, owes (c : Thread nD τ) (0 : CellTallies nD τ sig Unit) W)

/-! ## What each region leaves: its arrays at the exit contents, everything else as entered -/

theorem exit0_arr (c : Dev nD) (w : Fin cfg0.W) :
    (pdats m 0 c).arrAt w cfg0.N = atL0 m c (Pipeline.arrRef spec0 w) := by
  match w with
  | ⟨0, _⟩ =>
    refine ((L0.dat (atLaunch m) c).arrAt_in 0 rfl _).trans ((L0.A_eq (atLaunch m) c 0).trans ?_)
    exact (Function.update_of_ne (StableHlo.devRef_ne_of_ne (by decide) : (Proc.devRef .tc main_arg0 : DevRef τ sig) ≠ Proc.devRef .tc main_v0) _ _).symm
  | ⟨1, _⟩ =>
    refine ((L0.dat (atLaunch m) c).arrAt_in 1 rfl _).trans ((L0.A_eq (atLaunch m) c 1).trans ?_)
    exact (Function.update_of_ne (StableHlo.devRef_ne_of_ne (by decide) : (Proc.devRef .tc main_arg1 : DevRef τ sig) ≠ Proc.devRef .tc main_v0) _ _).symm
  | ⟨2, _⟩ => exact (Function.update_self (f := Gen.V0 m c) (Proc.devRef .tc main_v0 : DevRef τ sig) _).symm

theorem exit0_rest (c : Dev nD) : ∀ b, b ∉ Finset.univ.image (Pipeline.arrRef spec0) → atL0 m c b = atLaunch m c b := by
  intro b hb
  have hne : b ≠ main_v0 := fun e => hb (Finset.mem_image.mpr ⟨2, Finset.mem_univ _, e.symm⟩)
  exact Function.update_of_ne (StableHlo.devRef_ne_of_ne hne) _ _

theorem exit1_arr (c : Dev nD) (w : Fin cfg1.W) :
    (pdats m 1 c).arrAt w cfg1.N = atL1 m c (Pipeline.arrRef spec1 w) := by
  match w with
  | ⟨0, _⟩ =>
    refine ((L1.dat (atL0 m) c).arrAt_in 0 rfl _).trans ((L1.A_eq (atL0 m) c 0).trans ?_)
    exact (Function.update_of_ne (StableHlo.devRef_ne_of_ne (by decide) : (Proc.devRef .tc main_v0 : DevRef τ sig) ≠ Proc.devRef .tc main_v1) _ _).symm
  | ⟨1, _⟩ =>
    refine ((L1.dat (atL0 m) c).arrAt_in 1 rfl _).trans ((L1.A_eq (atL0 m) c 1).trans ?_)
    exact (Function.update_of_ne (StableHlo.devRef_ne_of_ne (by decide) : (Proc.devRef .tc main_arg2 : DevRef τ sig) ≠ Proc.devRef .tc main_v1) _ _).symm
  | ⟨2, _⟩ => exact (Function.update_self (f := afterL0 m c) (Proc.devRef .tc main_v1 : DevRef τ sig) _).symm

theorem exit1_rest (c : Dev nD) : ∀ b, b ∉ Finset.univ.image (Pipeline.arrRef spec1) → atL1 m c b = atL0 m c b := by
  intro b hb
  have hne : b ≠ main_v1 := fun e => hb (Finset.mem_image.mpr ⟨2, Finset.mem_univ _, e.symm⟩)
  exact Function.update_of_ne (StableHlo.devRef_ne_of_ne hne) _ _

/-! ## The regions as steps -/

set_option backward.isDefEq.respectTransparency.types false in
/-- The first region: entered with every unscoped buffer at the launch contents, left with them at `afterL0`. -/
def reg0 : RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (L0.body_obligation (atLaunch m) c).loose
  hwaits := Pipeline.hwaits_of_owed_zero _ _ _ _ noPairs noLevel 0 fun _ _ => rfl
  pre c := iprop(StableHlo.held (c : Thread nD τ) (Pipeline.ucRefs τ sig) (Gen.V0 m c) ∗ beside c)
  post c := iprop(StableHlo.held (c : Thread nD τ) (Pipeline.ucRefs τ sig) (afterL0 m c) ∗ beside c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hrest
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none]
    have hN : (Fin.last cfg0.N).val ≠ 0 := by rw [Fin.val_last]; have : cfg0.N = 128 := N_0; omega
    show L0.carried (atLaunch m) c (Fin.last cfg0.N).val (Nat.le_of_lt_succ (Fin.last cfg0.N).isLt)
      ⊢ iprop((∃ r, prngReg c r) ∗ BI.emp
          ∗ Pipeline.scopedRest (Ix := Unit) (Name := ℕ) (U := UR sig nD τ) (Lvl := ℕ) (Val := Elt F) spec0 c)
    rw [L0.carried_pos (atLaunch m) c _ _ hN]
    iintro ⟨⟨Hacc, Hothers⟩, Hgen⟩
    isplitl [Hgen]; · iexact Hgen
    isplitr; · iempintro
    iapply (show iprop(((∃ d, owns (c : Thread nD τ) L0.macc fullShare d)
        ∗ Pipeline.scopedRestBut (Ix := Unit) (Name := ℕ) (U := UR sig nD τ) (Lvl := ℕ) (Val := Elt F) spec0 c [cc0_scratch0]))
        ⊢ (Pipeline.scopedRest (Ix := Unit) (Name := ℕ) (U := UR sig nD τ) (Lvl := ℕ) (Val := Elt F) spec0 c : sProp 𝕄) from by
      rw [Pipeline.scopedRest_split_of_list spec0 c [cc0_scratch0] (by decide) (by decide)]
      simp only [L0.macc, owns_whole, bigSepL]
      exact BI.Entails.refl _)
    isplitl [Hacc]; · iexists _; iexact Hacc
    iexact Hothers
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (atL0 m c) ((pdats m 0 c).arrAt · cfg0.N) (exit0_arr m c) (exit0_rest m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The second region: entered at `afterL0`, left at `afterL1`. -/
def reg1 : RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (L1.body_obligation (atL0 m) c).loose
  hwaits := Pipeline.hwaits_of_owed_zero _ _ _ _ noPairs noLevel 1 fun _ _ => rfl
  pre c := iprop(StableHlo.held (c : Thread nD τ) (Pipeline.ucRefs τ sig) (afterL0 m c) ∗ beside c)
  post c := iprop(StableHlo.held (c : Thread nD τ) (Pipeline.ucRefs τ sig) (afterL1 m c) ∗ beside c)
  X c := iprop(∃ r, prngReg c r)
  Y c := iprop(∃ r, prngReg c r)
  Z c := Pipeline.unscopedRest (Ix := Unit) (Name := ℕ) (U := UR sig nD τ) (Lvl := ℕ) spec1 c (atL0 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atL0 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      iexact Hdue
    isplitl [Hgen]; · iexact Hgen
    iexact Hrest
  hin c := by
    rw [show (pdats m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none]
    have hN : (Fin.last cfg1.N).val ≠ 0 := by rw [Fin.val_last]; have : cfg1.N = 128 := N_1; omega
    show L1.carried (atL0 m) c (Fin.last cfg1.N).val (Nat.le_of_lt_succ (Fin.last cfg1.N).isLt)
      ⊢ iprop((∃ r, prngReg c r) ∗ BI.emp
          ∗ Pipeline.scopedRest (Ix := Unit) (Name := ℕ) (U := UR sig nD τ) (Lvl := ℕ) (Val := Elt F) spec1 c)
    rw [L1.carried_pos (atL0 m) c _ _ hN]
    iintro ⟨⟨Hacc, Hothers⟩, Hgen⟩
    isplitl [Hgen]; · iexact Hgen
    isplitr; · iempintro
    iapply (show iprop(((∃ d, owns (c : Thread nD τ) L1.macc fullShare d)
        ∗ Pipeline.scopedRestBut (Ix := Unit) (Name := ℕ) (U := UR sig nD τ) (Lvl := ℕ) (Val := Elt F) spec1 c [cc1_scratch0]))
        ⊢ (Pipeline.scopedRest (Ix := Unit) (Name := ℕ) (U := UR sig nD τ) (Lvl := ℕ) (Val := Elt F) spec1 c : sProp 𝕄) from by
      rw [Pipeline.scopedRest_split_of_list spec1 c [cc1_scratch0] (by decide) (by decide)]
      simp only [L1.macc, owns_whole, bigSepL]
      exact BI.Entails.refl _)
    isplitl [Hacc]; · iexists _; iexact Hacc
    iexact Hothers
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atL0 m c) (atL1 m c) ((pdats m 1 c).arrAt · cfg1.N) (exit1_arr m c) (exit1_rest m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

/-! ## The frame -/

/-- Every weakly fair execution of the program terminates, nothing faulting, with its three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Gen.frame_cond (F := F) m emb₁ () noVariants noPairs noLevel (fun _ _ => rfl) ρ (leftBy m) (pdats m)
    (O₀ := 0) (G := fun _ => iprop(emp))
    (u₀ := initOf (Pipeline.cells cfgs cellOf_inj) (Pipeline.launchToks cfgs cellOf_inj))
    (hu₀ := ?_) (E := fun _ c => beside c) (hE0 := ?_) (hE2 := ?_)
    (R0 := reg0 m) (hpre0 := fun _ => .rfl) (hpost0 := fun c => ?_)
    (R1 := reg1 m) (hpre1 := fun c => ?_) (hpost1 := fun c => ?_)
  · -- the launch element is the pipelines' own; no further ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- at launch each core has its generator register and owes nothing
    refine Pipeline.initEach noPairs noLevel fun c => ?_
    iintro ⟨⟨-, Hdue, -, Hgen, -⟩, -⟩
    imodintro
    isplitl [Hgen]; · iexists _; iexact Hgen
    iexists ∅; iexact Hdue
  · -- and at the end it still owes nothing
    intro c; iintro ⟨-, Hdue⟩; iexact Hdue
  · rw [V1_eq]; exact .rfl
  · rw [V1_eq]; exact .rfl
  · rw [V2_eq]; exact .rfl

end Cert.KernelIdeal.Seq

end
-- ==== Proof.MaxPlus.lean ====
/-
  The mathematics both programs compute, with no program in sight.

  One layer of the max-plus network takes x : [B, K] and w : [J, K] to the array whose entry (b, j) is
  max (sup over k of (x[b, k] + w[j, k])) zero, the supremum taken as a fold of `max` from a starting value `bot`.
  Both `bot` and `zero` are parameters: the programs pass the same two literal words, and nothing here needs to
  know which extended reals they denote.

  The kernel does not take the supremum in one go: it cuts the K terms into blocks of T and keeps a running
  maximum, started at `bot`, folding one block in per step (`runMax`). In a linear order that changes nothing,
  because a fold of `max` from `b` is never below `b` and the fold over two ranges laid end to end is the `max` of
  the two folds (`runMax_eq`). No finiteness is used: only that `max` is associative, commutative and idempotent.
-/
import Idealize.ShloMosaic.Lib.ValueIdx
import Mathlib.Data.Finset.Fold
import Mathlib.Order.Lattice
import Mathlib.Data.Fintype.Basic

noncomputable section

namespace Cert.MaxPlus

open Idealize.ShloMosaic Idealize.ShloMosaic.ValueIdx

/-- The value every maximum is started from, and the value the result is clamped below by: the two words both programs
    spell, read as extended reals. Which extended reals they are is never used. -/
abbrev startW : EReal := Ideal.ofBits .f32 0xFF800000#32
abbrev zeroW : EReal := Ideal.ofBits .f32 0x00000000#32

/-- Entry (p, q) of one layer: the largest of x[p, k] + w[q, k] over k, folded from `bot`, then clamped below by `zero`. -/
def entry {B J K : ℕ} (bot zero : EReal) (x : (⟨2, ![B, K]⟩ : Shape).Idx → EReal) (w : (⟨2, ![J, K]⟩ : Shape).Idx → EReal)
    (p : Fin B) (q : Fin J) : EReal :=
  max ((Finset.univ : Finset (Fin K)).fold max bot (fun k => x (ix2 p k) + w (ix2 q k))) zero

/-- One layer as a whole array. -/
def layer {B J K : ℕ} (bot zero : EReal) (x : (⟨2, ![B, K]⟩ : Shape).Idx → EReal) (w : (⟨2, ![J, K]⟩ : Shape).Idx → EReal) :
    (⟨2, ![B, J]⟩ : Shape).Idx → EReal :=
  fun i => entry bot zero x w (i 0) (i 1)

theorem layer_apply {B J K : ℕ} (bot zero : EReal) (x : (⟨2, ![B, K]⟩ : Shape).Idx → EReal) (w : (⟨2, ![J, K]⟩ : Shape).Idx → EReal)
    (p : Fin B) (q : Fin J) : layer bot zero x w (ix2 p q) = entry bot zero x w p q := rfl

section Blocks

variable {α : Type} [LinearOrder α]

/-- The largest of the T terms g (T s), …, g (T s + T - 1), folded from `b`. -/
def blockMax (b : α) (T : ℕ) (g : ℕ → α) (s : ℕ) : α :=
  (Finset.univ : Finset (Fin T)).fold max b (fun r => g (T * s + r.val))

/-- The running maximum after blocks 0, …, s: it starts at `b` and takes one block in per step. -/
def runMax (b : α) (T : ℕ) (g : ℕ → α) : ℕ → α
  | 0 => max b (blockMax b T g 0)
  | s + 1 => max (runMax b T g s) (blockMax b T g (s + 1))

/-- A fold of `max` from `b` over the first n terms lies below c exactly when b and each of the n terms do. -/
private theorem fold_fin_le_iff (b : α) (n : ℕ) (g : ℕ → α) (c : α) :
    (Finset.univ : Finset (Fin n)).fold max b (fun k => g k.val) ≤ c ↔ b ≤ c ∧ ∀ k, k < n → g k ≤ c := by
  rw [Finset.fold_max_le]
  constructor
  · rintro ⟨hb, h⟩
    exact ⟨hb, fun k hk => h ⟨k, hk⟩ (Finset.mem_univ _)⟩
  · rintro ⟨hb, h⟩
    exact ⟨hb, fun k _ => h k.val k.isLt⟩

/-- One block's maximum lies below c exactly when b and each of the block's T terms do. -/
private theorem blockMax_le_iff (b : α) (T : ℕ) (g : ℕ → α) (s : ℕ) (c : α) :
    blockMax b T g s ≤ c ↔ b ≤ c ∧ ∀ r, r < T → g (T * s + r) ≤ c := by
  unfold blockMax
  exact fold_fin_le_iff b T (fun r => g (T * s + r)) c

/-- The running maximum after blocks 0, …, s lies below c exactly when b and each of the first T (s + 1) terms do:
    an index below T (s + 2) is either below T (s + 1) or of the form T (s + 1) + r with r < T. -/
private theorem runMax_le_iff (b : α) (T : ℕ) (g : ℕ → α) (s : ℕ) (c : α) :
    runMax b T g s ≤ c ↔ b ≤ c ∧ ∀ k, k < T * (s + 1) → g k ≤ c := by
  induction s with
  | zero =>
    rw [runMax, max_le_iff, blockMax_le_iff]
    have h0 : T * (0 + 1) = T := by omega
    constructor
    · rintro ⟨hb, _, h⟩
      refine ⟨hb, fun k hk => ?_⟩
      have hk' := h k (by omega)
      rwa [Nat.mul_zero, Nat.zero_add] at hk'
    · rintro ⟨hb, h⟩
      refine ⟨hb, hb, fun r hr => ?_⟩
      rw [Nat.mul_zero, Nat.zero_add]
      exact h r (by omega)
  | succ s ih =>
    rw [runMax, max_le_iff, ih, blockMax_le_iff]
    have hT : T * (s + 1 + 1) = T * (s + 1) + T := Nat.mul_succ T (s + 1)
    constructor
    · rintro ⟨⟨hb, h1⟩, _, h2⟩
      refine ⟨hb, fun k hk => ?_⟩
      by_cases hk1 : k < T * (s + 1)
      · exact h1 k hk1
      · have hk' := h2 (k - T * (s + 1)) (by omega)
        rwa [Nat.add_sub_cancel' (by omega)] at hk'
    · rintro ⟨hb, h⟩
      exact ⟨⟨hb, fun k hk => h k (by omega)⟩, hb, fun r hr => h _ (by omega)⟩

/-- Taking the terms a block at a time gives the same maximum as taking them all at once. -/
theorem runMax_eq (b : α) (T : ℕ) (g : ℕ → α) (s : ℕ) :
    runMax b T g s = (Finset.univ : Finset (Fin (T * (s + 1)))).fold max b (fun k => g k.val) := by
  refine eq_of_forall_ge_iff fun c => ?_
  rw [runMax_le_iff, fold_fin_le_iff]

end Blocks

end Cert.MaxPlus

end
-- ==== Proof.KernelIdeal.L0Blocks.lean ====
/-
  Where the first layer's blocks sit in their arrays.

  The grid is walked in order, so point t has row-block t / 32, column-block (t / 4) % 8 and reduction block t % 4.
  The left operand's block at t is rows 128 (t / 32) … and columns 128 (t % 4) … of x; the right operand's is rows
  128 ((t / 4) % 8) … and columns 128 (t % 4) … of w; the output's is rows 128 (t / 32) … and columns
  128 ((t / 4) % 8) … of the result.
-/
import proofs.«119052_j32392643346992_1_alg».proof.Proof.KernelIdeal.L0Data
import proofs.«119052_j32392643346992_1_alg».proof.Proof.MaxPlus
import Idealize.ShloMosaic.Lib.ValueIdx
import Idealize.ShloMosaic.Lib.Pipeline.Value

set_option maxRecDepth 16384

noncomputable section

namespace Cert.KernelIdeal.L0

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The two input arrays as the region finds them, at their literal types. -/
abbrev xArr (c : Dev nD) : S512x512.Idx → EReal := V c main_arg0
abbrev wArr (c : Dev nD) : S1024x512.Idx → EReal := V c main_arg1

/-- Point t's three block coordinates. -/
def rowB (t : Fin cfg0.N) : ℕ := t.val / 32
def colB (t : Fin cfg0.N) : ℕ := t.val / 4 % 8
def redB (t : Fin cfg0.N) : ℕ := t.val % 4
theorem rowB_lt (t : Fin cfg0.N) : rowB t < 4 := by
  have h := t.isLt; have hN : cfg0.N = 128 := N_0; unfold rowB; omega
theorem colB_lt (t : Fin cfg0.N) : colB t < 8 := by unfold colB; omega
theorem redB_lt (t : Fin cfg0.N) : redB t < 4 := by unfold redB; omega

/-- Row p of block b of an axis cut into blocks of 128. -/
def at128 {n : ℕ} (N : ℕ) (b : ℕ) (hb : b < n) (hN : 128 * n = N) (p : Fin 128) : Fin N :=
  ⟨128 * b + p.val, by have := p.isLt; omega⟩

/-- The block indices of the left operand's window at point t, decided once over the grid. -/
private theorem xidx : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
/-- The block indices of the right operand's window at point t, decided once over the grid. -/
private theorem widx : ∀ t : Fin cfg0.N, win0_1.index t (0 : Fin 2) = t.val / 4 % 8 ∧ win0_1.index t (1 : Fin 2) = t.val % 4 :=
  (by decide +kernel : ∀ t : Fin grid0.N, win0_1.index t (0 : Fin 2) = t.val / 4 % 8 ∧ win0_1.index t (1 : Fin 2) = t.val % 4)

/-- The left operand's block at point t, entry (p, r): x at row 128 (t / 32) + p, column 128 (t % 4) + r. -/
theorem xblk_apply (c : Dev nD) (t : Fin cfg0.N) (p r : Fin 128) :
    (iblk V c 0 t : Vec Ideal S128x128 .f32) (ix2 p r)
      = xArr V c (ix2 (at128 512 (rowB t) (rowB_lt t) rfl p) (at128 512 (redB t) (redB_lt t) rfl r)) := by
  obtain ⟨e0, e1⟩ := xidx t
  unfold iblk
  rw [View.read_apply]
  -- the block's entry sits in the array, on each axis, at block index × 128 + its own coordinate
  show V c main_arg0 (((cfg0.win 0).blk t).view.emb (ix2 p r)) = V c main_arg0 _
  congr 1
  funext a
  apply Fin.ext
  match a with
  | ⟨0, _⟩ =>
    show win0_0.index t (0 : Fin 2) * 128 + 1 * p.val = 128 * rowB t + p.val
    unfold rowB; omega
  | ⟨1, _⟩ =>
    show win0_0.index t (1 : Fin 2) * 128 + 1 * r.val = 128 * redB t + r.val
    unfold redB; omega

/-- The right operand's block at point t, entry (q, r): w at row 128 ((t / 4) % 8) + q, column 128 (t % 4) + r. -/
theorem wblk_apply (c : Dev nD) (t : Fin cfg0.N) (q r : Fin 128) :
    (iblk V c 1 t : Vec Ideal S128x128 .f32) (ix2 q r)
      = wArr V c (ix2 (at128 1024 (colB t) (colB_lt t) rfl q) (at128 512 (redB t) (redB_lt t) rfl r)) := by
  obtain ⟨e0, e1⟩ := widx t
  unfold iblk
  rw [View.read_apply]
  show V c main_arg1 (((cfg0.win 1).blk t).view.emb (ix2 q r)) = V c main_arg1 _
  congr 1
  funext a
  apply Fin.ext
  match a with
  | ⟨0, _⟩ =>
    show win0_1.index t (0 : Fin 2) * 128 + 1 * q.val = 128 * colB t + q.val
    unfold colB; omega
  | ⟨1, _⟩ =>
    show win0_1.index t (1 : Fin 2) * 128 + 1 * r.val = 128 * redB t + r.val
    unfold redB; omega

end Cert.KernelIdeal.L0

end
-- ==== Proof.KernelIdeal.L0Pay.lean ====
/-
  The first layer's three stored values, read at one entry over the extended reals.

  The reset value is the start value everywhere. The step takes the accumulator's entry (p, q) to its maximum with
  the largest of x[p, r] + w[q, r] over the block's 128 columns r, that inner maximum folded from the start value:
  x's block is viewed as [128, 1, 128] and w's as [1, 128, 128], both are spread to [128, 128, 128], added, and the
  last axis is reduced. The stored output is the accumulator's entry clamped below.
-/
import proofs.«119052_j32392643346992_1_alg».proof.Proof.Gen.KernelIdeal.Skeleton
import proofs.«119052_j32392643346992_1_alg».proof.Proof.MaxPlus
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.L0

open Cert.KernelIdeal Cert.KernelIdeal.Gen Cert.MaxPlus
open Idealize.ShloMosaic Idealize.ShloMosaic.TcCoe Idealize.ShloMosaic.ValueIdx
open Idealize.SL.Sem

section Layout
variable {α : Type}

/-- An `[a, b]` array viewed as `[a, 1, b]` reads, at `(p, u, r)`, the operand at `(p, r)`: the unit axis carries no
    position, so both indices sit at row-major position `p b + r`. -/
private theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (r : Fin b) :
    shapeCast ⟨3, ![a, 1, b]⟩ x h (ix3 p u r) = x (ix2 p r) :=
  shapeCast_apply x h _ _ (by
    have hu : u.val = 0 := by omega
    rw [Shape.rowMajor_val_three, Shape.rowMajor_val_two]
    show p.val * b + r.val = (p.val * 1 + u.val) * b + r.val
    rw [hu, Nat.mul_one, Nat.add_zero])

/-- An `[a, 1, b]` array spread to `[a, c, b]` reads, at `(p, q, r)`, the operand at `(p, 0, r)`: the middle axis is
    the unit one; on an outer axis that happens to have size one the coordinate is zero anyway. -/
private theorem broadcastTo_a1b_acb_apply {a b c : ℕ} (v : (⟨3, ![a, 1, b]⟩ : Shape).Idx → α)
    (h : (⟨3, ![a, 1, b]⟩ : Shape).Broadcasts ⟨3, ![a, c, b]⟩) (p : Fin a) (q : Fin c) (r : Fin b) :
    broadcastTo ⟨3, ![a, c, b]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if b = 1 then 0 else r.val
    split
    · have := r.isLt; omega
    · rfl

/-- A `[1, a, b]` array spread to `[c, a, b]` reads, at `(p, q, r)`, the operand at `(0, q, r)`. -/
private theorem broadcastTo_1ab_cab_apply {a b c : ℕ} (v : (⟨3, ![1, a, b]⟩ : Shape).Idx → α)
    (h : (⟨3, ![1, a, b]⟩ : Shape).Broadcasts ⟨3, ![c, a, b]⟩) (p : Fin c) (q : Fin a) (r : Fin b) :
    broadcastTo ⟨3, ![c, a, b]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if a = 1 then 0 else q.val
    split
    · have := q.isLt; omega
    · rfl
  | ⟨2, _⟩ =>
    show r.val = if b = 1 then 0 else r.val
    split
    · have := r.isLt; omega
    · rfl

end Layout

/-- Over the result index `(p, q)` of a reduction along the last of three axes, the source index with coordinate `r` on
    that axis is `(p, q, r)`. -/
private theorem lift_last_ix2 {a b c : ℕ} (h : (⟨3, ![a, b, c]⟩ : Shape).Reduces [2] ⟨2, ![a, b]⟩)
    (p : Fin a) (q : Fin b) (r : Fin c) : h.lift (ix2 p q) r = ix3 p q r :=
  funext fun ax => match ax with
    | ⟨0, _⟩ => Fin.ext rfl
    | ⟨1, _⟩ => Fin.ext rfl
    | ⟨2, _⟩ => Fin.ext rfl

/-- The reset value: a splat of the start word, viewed at its own shape. -/
theorem pay1_apply (p q : Fin 128) : (k0_pay1 (F := Ideal)) (ix2 p q) = startW := by
  unfold k0_pay1
  simp only [shapeCast_self, broadcast_apply]
  rfl

/-- The step: the accumulator's entry against the row maximum of the spread sum. The view at the same shape is the
    identity and the maximum is entrywise; the reduction along the last axis is the fold of `max` from the start word
    over that axis's coordinates r; at `(p, q, r)` the spread sum is x at `(p, r)` (through `[128, 1, 128]`) plus w at
    `(q, r)` (through `[1, 128, 128]`). -/
theorem pay2_apply (x w s : Vec Ideal S128x128 .f32) (p q : Fin 128) :
    k0_pay2 (F := Ideal) x w s (ix2 p q)
      = max (s (ix2 p q)) ((Finset.univ : Finset (Fin 128)).fold max startW (fun r => x (ix2 p r) + w (ix2 q r))) := by
  unfold k0_pay2
  repeat rw [shapeCast_self]
  rw [maximumf_apply]
  refine congrArg (max (s (ix2 p q))) ?_
  refine (Ideal.multiReduction_maximumf_single _ _ _ _ _ (ix2 p q)).trans ?_
  refine Finset.fold_congr fun (r : Fin 128) _ => ?_
  show addf _ _ (reduces_S128x128x128_S128x128.lift (ix2 p q) r) = _
  rw [lift_last_ix2, addf_apply, broadcastTo_a1b_acb_apply, shapeCast_ab_a1b_apply, broadcastTo_1ab_cab_apply,
    shapeCast_ab_1ab_apply]

/-- The stored output: the entrywise maximum with a splat of the zero word. -/
theorem pay3_apply (a : Vec Ideal S128x128 .f32) (p q : Fin 128) :
    k0_pay3 (F := Ideal) a (ix2 p q) = max (a (ix2 p q)) zeroW := by
  unfold k0_pay3
  simp only [shapeCast_self, maximumf_apply, broadcast_apply]
  rfl

end Cert.KernelIdeal.L0

end
-- ==== Proof.KernelIdeal.L0Fold.lean ====
/-
  What the first layer's accumulator holds after point t, entry by entry.

  Fix an entry (p, q) of the block and let P, Q be the rows of x and w it belongs to. The terms are
  g k = x[P, k] + w[Q, k], k < 512. Point t, at reduction block t % 4, has folded in blocks 0 … t % 4 of 128 terms
  each since the last reset, so the entry is the running maximum `runMax` at stage t % 4: by induction on t % 4, the
  reset value being the start value and each step the maximum with one more block's fold.
-/
import proofs.«119052_j32392643346992_1_alg».proof.Proof.KernelIdeal.L0Blocks
import proofs.«119052_j32392643346992_1_alg».proof.Proof.KernelIdeal.L0Pay

set_option maxRecDepth 16384

noncomputable section

namespace Cert.KernelIdeal.L0

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Term k of the row pair (P, Q): x[P, k] + w[Q, k]; past the last column, the start value (never reached). -/
def term (c : Dev nD) (P : Fin 512) (Q : Fin 1024) (k : ℕ) : EReal :=
  if h : k < 512 then xArr V c (ix2 P ⟨k, h⟩) + wArr V c (ix2 Q ⟨k, h⟩)
  else startW

/-- One step at one entry: the entry's maximum with the block maximum of its row pair's terms, since column r of
    the point's blocks is column r of the point's reduction block of the arrays. -/
private theorem step_entry (c : Dev nD) (t : Fin cfg0.N) (s : Vec Ideal S128x128 .f32) (p q : Fin 128) :
    (step (F := Ideal) V c t s) (ix2 p q)
      = max (s (ix2 p q))
          (blockMax startW 128
            (term V c (at128 512 (rowB t) (rowB_lt t) rfl p) (at128 1024 (colB t) (colB_lt t) rfl q)) (redB t)) := by
  unfold step
  rw [pay2_apply]
  refine congrArg (max (s (ix2 p q))) ?_
  unfold blockMax
  refine Finset.fold_congr ?_
  intro r _
  have hr := r.isLt
  have hb := redB_lt t
  have hk : 128 * redB t + r.val < 512 := by omega
  rw [xblk_apply, wblk_apply]
  unfold term
  rw [dif_pos hk]
  rfl

/-- The induction on the reduction block, over a fixed row block R and column block C: the point before a point that
    is not at a first reduction block has the same row and column blocks and the reduction block before. -/
private theorem accAt_entry_aux (c : Dev nD) (p q : Fin 128) (R C : ℕ) (hR : R < 4) (hC : C < 8) :
    ∀ (r : ℕ) (t : Fin cfg0.N), redB t = r → rowB t = R → colB t = C →
      (accAt (F := Ideal) V c t.val t.isLt) (ix2 p q)
        = runMax startW 128 (term V c (at128 512 R hR rfl p) (at128 1024 C hC rfl q)) r := by
  intro r
  induction r with
  | zero =>
    intro t hr hRt hCt
    have hP : at128 512 (rowB t) (rowB_lt t) rfl p = at128 512 R hR rfl p := by subst hRt; rfl
    have hQ : at128 1024 (colB t) (colB_lt t) rfl q = at128 1024 C hC rfl q := by subst hCt; rfl
    rw [accAt_first V c t hr, step_entry, pay1_apply, hP, hQ, hr]
    rfl
  | succ r ih =>
    intro t hr hRt hCt
    have hP : at128 512 (rowB t) (rowB_lt t) rfl p = at128 512 R hR rfl p := by subst hRt; rfl
    have hQ : at128 1024 (colB t) (colB_lt t) rfl q = at128 1024 C hC rfl q := by subst hCt; rfl
    have hlt := t.isLt
    have hN : cfg0.N = 128 := N_0
    have hr' := hr
    have hR' := hRt
    have hC' := hCt
    unfold redB at hr'
    unfold rowB at hR'
    unfold colB at hC'
    have ht' : t.val - 1 < cfg0.N := by omega
    have e1 : redB (⟨t.val - 1, ht'⟩ : Fin cfg0.N) = r := by unfold redB; dsimp only; omega
    have e2 : rowB (⟨t.val - 1, ht'⟩ : Fin cfg0.N) = R := by unfold rowB; dsimp only; omega
    have e3 : colB (⟨t.val - 1, ht'⟩ : Fin cfg0.N) = C := by unfold colB; dsimp only; omega
    have hprev := ih ⟨t.val - 1, ht'⟩ e1 e2 e3
    rw [accAt_next V c t (by omega), step_entry, hP, hQ, hr]
    rw [show (accAt (F := Ideal) V c (t.val - 1) (Nat.lt_of_le_of_lt (Nat.sub_le _ _) t.isLt)) (ix2 p q)
          = runMax startW 128 (term V c (at128 512 R hR rfl p) (at128 1024 C hC rfl q)) r from hprev]
    rfl

/-- The accumulator's entry (p, q) after point t is the running maximum of its row pair's terms at stage t % 4. -/
theorem accAt_entry (c : Dev nD) (t : Fin cfg0.N) (p q : Fin 128) :
    (accAt (F := Ideal) V c t.val t.isLt) (ix2 p q)
      = runMax startW 128 (term V c (at128 512 (rowB t) (rowB_lt t) rfl p) (at128 1024 (colB t) (colB_lt t) rfl q)) (redB t) := by
  exact accAt_entry_aux V c p q (rowB t) (colB t) (rowB_lt t) (colB_lt t) (redB t) t rfl rfl rfl

end Cert.KernelIdeal.L0

end
-- ==== Proof.KernelIdeal.L0Value.lean ====
/-
  What the first region leaves in its output array: the first layer of its two input arrays.

  The output block is written back exactly at the points with t % 4 = 3, and by then the accumulator's entry is the
  running maximum over all four blocks, that is, over all 512 terms of its row pair (`runMax_eq`); the stored block is
  that, clamped below. Row P and column Q of the result lie in the block of the one point with row-block P / 128,
  column-block Q / 128 and reduction block 3, so the blocks written back cover the array and agree with the layer.
-/
import proofs.«119052_j32392643346992_1_alg».proof.Proof.KernelIdeal.L0Fold

set_option maxRecDepth 16384

noncomputable section

namespace Cert.KernelIdeal.L0

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The output array after the region's last point, at its literal type. -/
abbrev outArr (c : Dev nD) : S512x1024.Idx → EReal := (dat (F := Ideal) V c).arrAt 2 cfg0.N

/-- The output window's block indices at point t, decided once over the grid. -/
private theorem oidx : ∀ t : Fin cfg0.N, win0_2.index t (0 : Fin 2) = t.val / 32 ∧ win0_2.index t (1 : Fin 2) = t.val / 4 % 8 :=
  (by decide +kernel : ∀ t : Fin grid0.N, win0_2.index t (0 : Fin 2) = t.val / 32 ∧ win0_2.index t (1 : Fin 2) = t.val / 4 % 8)

/-- Entry (p, q) of the output block at point t sits in the result at row p of the point's row-block and column q of
    its column-block. -/
private theorem oblk_emb (t : Fin cfg0.N) (p q : Fin 128) :
    (((cfg0.win 2).blk t).view.emb (ix2 p q) : S512x1024.Idx)
      = ix2 (at128 512 (rowB t) (rowB_lt t) rfl p) (at128 1024 (colB t) (colB_lt t) rfl q) := by
  obtain ⟨e0, e1⟩ := oidx t
  funext a
  apply Fin.ext
  match a with
  | ⟨0, _⟩ =>
    show win0_2.index t (0 : Fin 2) * 128 + 1 * p.val = 128 * rowB t + p.val
    unfold rowB; omega
  | ⟨1, _⟩ =>
    show win0_2.index t (1 : Fin 2) * 128 + 1 * q.val = 128 * colB t + q.val
    unfold colB; omega

/-- With every block taken in, the running maximum of a row pair is the maximum of all its terms, which is the layer's
    fold over the shared axis. -/
private theorem runMax_last (c : Dev nD) (P : Fin 512) (Q : Fin 1024) :
    runMax startW 128 (term V c P Q) 3
      = (Finset.univ : Finset (Fin 512)).fold max startW (fun k => xArr V c (ix2 P k) + wArr V c (ix2 Q k)) := by
  rw [runMax_eq]
  show (Finset.univ : Finset (Fin 512)).fold max startW (fun k => term V c P Q k.val) = _
  refine Finset.fold_congr fun k _ => ?_
  unfold term
  rw [dif_pos k.isLt]

/-- What a point at the last reduction block writes back, at entry (p, q): the layer's entry at that entry's row and
    column of the result. -/
private theorem flushed_entry (c : Dev nD) (t : Fin cfg0.N) (h3 : redB t = 3) (p q : Fin 128) :
    k0_pay3 (F := Ideal) (accAt (F := Ideal) V c t.val t.isLt) (ix2 p q)
      = layer startW zeroW (xArr V c) (wArr V c)
          (ix2 (at128 512 (rowB t) (rowB_lt t) rfl p) (at128 1024 (colB t) (colB_lt t) rfl q)) := by
  rw [pay3_apply, accAt_entry, h3, runMax_last, layer_apply]
  rfl

/-- What a flushing point writes back is its block of the layer. -/
private theorem flushed_eq (c : Dev nD) (t : Fin cfg0.N) (hf : (cfg0.win 2).flush t = true) :
    (dat (F := Ideal) V c).flushed 2 t
      = ((cfg0.win 2).blk t).view.read (Elt Ideal) (layer startW zeroW (xArr V c) (wArr V c)) := by
  have h3 : redB t = 3 := (flush0_2 t).mp hf
  show (cfg0.win 2).cut (grid0.coords t) ((dat (F := Ideal) V c).after 2 t) = _
  rw [after_out]
  funext j
  obtain ⟨p, q, rfl⟩ : ∃ (p q : Fin 128), j = ix2 p q := ⟨j 0, j 1, eq_ix2 j⟩
  rw [View.read_apply]
  show k0_pay3 (F := Ideal) (accAt (F := Ideal) V c t.val t.isLt) (ix2 p q)
    = layer startW zeroW (xArr V c) (wArr V c) (((cfg0.win 2).blk t).view.emb (ix2 p q))
  rw [oblk_emb, flushed_entry V c t h3]

/-- Row P, column Q of the result lies in the block of the point with row-block P / 128, column-block Q / 128 and the
    last reduction block, and that point writes its block back. -/
private theorem cover (i : S512x1024.Idx) :
    ∃ t : Fin cfg0.N, (cfg0.win 2).flush t = true ∧ i ∈ ((cfg0.win 2).blk t).view.set := by
  have hP : (i 0).val < 512 := (i 0).isLt
  have hQ : (i 1).val < 1024 := (i 1).isLt
  have hN : cfg0.N = 128 := N_0
  let t : Fin cfg0.N := ⟨32 * ((i 0).val / 128) + 4 * ((i 1).val / 128) + 3, by omega⟩
  have ht : t.val = 32 * ((i 0).val / 128) + 4 * ((i 1).val / 128) + 3 := rfl
  obtain ⟨e0, e1⟩ := oidx t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- After the region the output array holds the layer of the arrays the region was entered with. -/
theorem arr_out (c : Dev nD) : outArr V c = layer startW zeroW (xArr V c) (wArr V c) :=
  (dat (F := Ideal) V c).arrAt_eq_of_cover 2 (layer startW zeroW (xArr V c) (wArr V c))
    (fun t hf => flushed_eq V c t hf) cover

end Cert.KernelIdeal.L0

end
-- ==== Proof.KernelIdeal.L1Blocks.lean ====
/-
  Where the second layer's blocks sit in their arrays.

  The grid is walked in order, so point t has row-block t / 32, column-block (t / 8) % 4 and reduction block t % 8.
  The left operand's block at t is rows 128 (t / 32) … and columns 128 (t % 8) … of x; the right operand's is rows
  128 ((t / 8) % 4) … and columns 128 (t % 8) … of w; the output's is rows 128 (t / 32) … and columns
  128 ((t / 8) % 4) … of the result.
-/
import proofs.«119052_j32392643346992_1_alg».proof.Proof.KernelIdeal.L1Data
import proofs.«119052_j32392643346992_1_alg».proof.Proof.MaxPlus
import Idealize.ShloMosaic.Lib.ValueIdx
import Idealize.ShloMosaic.Lib.Pipeline.Value

set_option maxRecDepth 16384

noncomputable section

namespace Cert.KernelIdeal.L1

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The two input arrays as the region finds them, at their literal types. -/
abbrev xArr (c : Dev nD) : S512x1024.Idx → EReal := V c main_v0
abbrev wArr (c : Dev nD) : S512x1024.Idx → EReal := V c main_arg2

/-- Point t's three block coordinates. -/
def rowB (t : Fin cfg1.N) : ℕ := t.val / 32
def colB (t : Fin cfg1.N) : ℕ := t.val / 8 % 4
def redB (t : Fin cfg1.N) : ℕ := t.val % 8
theorem rowB_lt (t : Fin cfg1.N) : rowB t < 4 := by
  have h := t.isLt; have hN : cfg1.N = 128 := N_1; unfold rowB; omega
theorem colB_lt (t : Fin cfg1.N) : colB t < 4 := by unfold colB; omega
theorem redB_lt (t : Fin cfg1.N) : redB t < 8 := by unfold redB; omega

/-- Row p of block b of an axis cut into blocks of 128. -/
def at128 {n : ℕ} (N : ℕ) (b : ℕ) (hb : b < n) (hN : 128 * n = N) (p : Fin 128) : Fin N :=
  ⟨128 * b + p.val, by have := p.isLt; omega⟩

/-- The block indices of the left operand's window at point t, decided once over the grid. -/
private theorem xidx : ∀ t : Fin cfg1.N, win1_0.index t (0 : Fin 2) = t.val / 32 ∧ win1_0.index t (1 : Fin 2) = t.val % 8 :=
  (by decide +kernel : ∀ t : Fin grid1.N, win1_0.index t (0 : Fin 2) = t.val / 32 ∧ win1_0.index t (1 : Fin 2) = t.val % 8)
/-- The block indices of the right operand's window at point t, decided once over the grid. -/
private theorem widx : ∀ t : Fin cfg1.N, win1_1.index t (0 : Fin 2) = t.val / 8 % 4 ∧ win1_1.index t (1 : Fin 2) = t.val % 8 :=
  (by decide +kernel : ∀ t : Fin grid1.N, win1_1.index t (0 : Fin 2) = t.val / 8 % 4 ∧ win1_1.index t (1 : Fin 2) = t.val % 8)

/-- The left operand's block at point t, entry (p, r): x at row 128 (t / 32) + p, column 128 (t % 8) + r. -/
theorem xblk_apply (c : Dev nD) (t : Fin cfg1.N) (p r : Fin 128) :
    (iblk V c 0 t : Vec Ideal S128x128 .f32) (ix2 p r)
      = xArr V c (ix2 (at128 512 (rowB t) (rowB_lt t) rfl p) (at128 1024 (redB t) (redB_lt t) rfl r)) := by
  obtain ⟨e0, e1⟩ := xidx t
  unfold iblk
  rw [View.read_apply]
  -- the block's entry sits in the array, on each axis, at block index × 128 + its own coordinate
  show V c main_v0 (((cfg1.win 0).blk t).view.emb (ix2 p r)) = V c main_v0 _
  congr 1
  funext a
  apply Fin.ext
  match a with
  | ⟨0, _⟩ =>
    show win1_0.index t (0 : Fin 2) * 128 + 1 * p.val = 128 * rowB t + p.val
    unfold rowB; omega
  | ⟨1, _⟩ =>
    show win1_0.index t (1 : Fin 2) * 128 + 1 * r.val = 128 * redB t + r.val
    unfold redB; omega

/-- The right operand's block at point t, entry (q, r): w at row 128 ((t / 8) % 4) + q, column 128 (t % 8) + r. -/
theorem wblk_apply (c : Dev nD) (t : Fin cfg1.N) (q r : Fin 128) :
    (iblk V c 1 t : Vec Ideal S128x128 .f32) (ix2 q r)
      = wArr V c (ix2 (at128 512 (colB t) (colB_lt t) rfl q) (at128 1024 (redB t) (redB_lt t) rfl r)) := by
  obtain ⟨e0, e1⟩ := widx t
  unfold iblk
  rw [View.read_apply]
  show V c main_arg2 (((cfg1.win 1).blk t).view.emb (ix2 q r)) = V c main_arg2 _
  congr 1
  funext a
  apply Fin.ext
  match a with
  | ⟨0, _⟩ =>
    show win1_1.index t (0 : Fin 2) * 128 + 1 * q.val = 128 * colB t + q.val
    unfold colB; omega
  | ⟨1, _⟩ =>
    show win1_1.index t (1 : Fin 2) * 128 + 1 * r.val = 128 * redB t + r.val
    unfold redB; omega

end Cert.KernelIdeal.L1

end
-- ==== Proof.KernelIdeal.L1Pay.lean ====
/-
  The second layer's three stored values, read at one entry over the extended reals.

  The reset value is the start value everywhere. The step takes the accumulator's entry (p, q) to its maximum with
  the largest of x[p, r] + w[q, r] over the block's 128 columns r, that inner maximum folded from the start value:
  x's block is viewed as [128, 1, 128] and w's as [1, 128, 128], both are spread to [128, 128, 128], added, and the
  last axis is reduced. The stored output is the accumulator's entry clamped below.
-/
import proofs.«119052_j32392643346992_1_alg».proof.Proof.Gen.KernelIdeal.Skeleton
import proofs.«119052_j32392643346992_1_alg».proof.Proof.MaxPlus
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.L1

open Cert.KernelIdeal Cert.KernelIdeal.Gen Cert.MaxPlus
open Idealize.ShloMosaic Idealize.ShloMosaic.TcCoe Idealize.ShloMosaic.ValueIdx
open Idealize.SL.Sem

section Layout
variable {α : Type}

/-- An `[a, b]` array viewed as `[a, 1, b]` reads, at `(p, u, r)`, the operand at `(p, r)`: the unit axis carries no
    position, so both indices sit at row-major position `p b + r`. -/
private theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (r : Fin b) :
    shapeCast ⟨3, ![a, 1, b]⟩ x h (ix3 p u r) = x (ix2 p r) :=
  shapeCast_apply x h _ _ (by
    have hu : u.val = 0 := by omega
    rw [Shape.rowMajor_val_three, Shape.rowMajor_val_two]
    show p.val * b + r.val = (p.val * 1 + u.val) * b + r.val
    rw [hu, Nat.mul_one, Nat.add_zero])

/-- An `[a, 1, b]` array spread to `[a, c, b]` reads, at `(p, q, r)`, the operand at `(p, 0, r)`: the middle axis is
    the unit one; on an outer axis that happens to have size one the coordinate is zero anyway. -/
private theorem broadcastTo_a1b_acb_apply {a b c : ℕ} (v : (⟨3, ![a, 1, b]⟩ : Shape).Idx → α)
    (h : (⟨3, ![a, 1, b]⟩ : Shape).Broadcasts ⟨3, ![a, c, b]⟩) (p : Fin a) (q : Fin c) (r : Fin b) :
    broadcastTo ⟨3, ![a, c, b]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if b = 1 then 0 else r.val
    split
    · have := r.isLt; omega
    · rfl

/-- A `[1, a, b]` array spread to `[c, a, b]` reads, at `(p, q, r)`, the operand at `(0, q, r)`. -/
private theorem broadcastTo_1ab_cab_apply {a b c : ℕ} (v : (⟨3, ![1, a, b]⟩ : Shape).Idx → α)
    (h : (⟨3, ![1, a, b]⟩ : Shape).Broadcasts ⟨3, ![c, a, b]⟩) (p : Fin c) (q : Fin a) (r : Fin b) :
    broadcastTo ⟨3, ![c, a, b]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if a = 1 then 0 else q.val
    split
    · have := q.isLt; omega
    · rfl
  | ⟨2, _⟩ =>
    show r.val = if b = 1 then 0 else r.val
    split
    · have := r.isLt; omega
    · rfl

end Layout

/-- Over the result index `(p, q)` of a reduction along the last of three axes, the source index with coordinate `r` on
    that axis is `(p, q, r)`. -/
private theorem lift_last_ix2 {a b c : ℕ} (h : (⟨3, ![a, b, c]⟩ : Shape).Reduces [2] ⟨2, ![a, b]⟩)
    (p : Fin a) (q : Fin b) (r : Fin c) : h.lift (ix2 p q) r = ix3 p q r :=
  funext fun ax => match ax with
    | ⟨0, _⟩ => Fin.ext rfl
    | ⟨1, _⟩ => Fin.ext rfl
    | ⟨2, _⟩ => Fin.ext rfl

/-- The reset value: a splat of the start word, viewed at its own shape. -/
theorem pay1_apply (p q : Fin 128) : (k1_pay1 (F := Ideal)) (ix2 p q) = startW := by
  unfold k1_pay1
  simp only [shapeCast_self, broadcast_apply]
  rfl

/-- The step: the accumulator's entry against the row maximum of the spread sum. The view at the same shape is the
    identity and the maximum is entrywise; the reduction along the last axis is the fold of `max` from the start word
    over that axis's coordinates r; at `(p, q, r)` the spread sum is x at `(p, r)` (through `[128, 1, 128]`) plus w at
    `(q, r)` (through `[1, 128, 128]`). -/
theorem pay2_apply (x w s : Vec Ideal S128x128 .f32) (p q : Fin 128) :
    k1_pay2 (F := Ideal) x w s (ix2 p q)
      = max (s (ix2 p q)) ((Finset.univ : Finset (Fin 128)).fold max startW (fun r => x (ix2 p r) + w (ix2 q r))) := by
  unfold k1_pay2
  repeat rw [shapeCast_self]
  rw [maximumf_apply]
  refine congrArg (max (s (ix2 p q))) ?_
  refine (Ideal.multiReduction_maximumf_single _ _ _ _ _ (ix2 p q)).trans ?_
  refine Finset.fold_congr fun (r : Fin 128) _ => ?_
  show addf _ _ (reduces_S128x128x128_S128x128.lift (ix2 p q) r) = _
  rw [lift_last_ix2, addf_apply, broadcastTo_a1b_acb_apply, shapeCast_ab_a1b_apply, broadcastTo_1ab_cab_apply,
    shapeCast_ab_1ab_apply]

/-- The stored output: the entrywise maximum with a splat of the zero word. -/
theorem pay3_apply (a : Vec Ideal S128x128 .f32) (p q : Fin 128) :
    k1_pay3 (F := Ideal) a (ix2 p q) = max (a (ix2 p q)) zeroW := by
  unfold k1_pay3
  simp only [shapeCast_self, maximumf_apply, broadcast_apply]
  rfl

end Cert.KernelIdeal.L1

end
-- ==== Proof.KernelIdeal.L1Fold.lean ====
/-
  What the second layer's accumulator holds after point t, entry by entry.

  Fix an entry (p, q) of the block and let P, Q be the rows of x and w it belongs to. The terms are
  g k = x[P, k] + w[Q, k], k < 1024. Point t, at reduction block t % 8, has folded in blocks 0 … t % 8 of 128 terms
  each since the last reset, so the entry is the running maximum `runMax` at stage t % 8: by induction on t % 8, the
  reset value being the start value and each step the maximum with one more block's fold.
-/
import proofs.«119052_j32392643346992_1_alg».proof.Proof.KernelIdeal.L1Blocks
import proofs.«119052_j32392643346992_1_alg».proof.Proof.KernelIdeal.L1Pay

set_option maxRecDepth 16384

noncomputable section

namespace Cert.KernelIdeal.L1

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Term k of the row pair (P, Q): x[P, k] + w[Q, k]; past the last column, the start value (never reached). -/
def term (c : Dev nD) (P : Fin 512) (Q : Fin 512) (k : ℕ) : EReal :=
  if h : k < 1024 then xArr V c (ix2 P ⟨k, h⟩) + wArr V c (ix2 Q ⟨k, h⟩)
  else startW

/-- One step at one entry: the entry's maximum with the block maximum of its row pair's terms, since column r of
    the point's blocks is column r of the point's reduction block of the arrays. -/
private theorem step_entry (c : Dev nD) (t : Fin cfg1.N) (s : Vec Ideal S128x128 .f32) (p q : Fin 128) :
    (step (F := Ideal) V c t s) (ix2 p q)
      = max (s (ix2 p q))
          (blockMax startW 128
            (term V c (at128 512 (rowB t) (rowB_lt t) rfl p) (at128 512 (colB t) (colB_lt t) rfl q)) (redB t)) := by
  unfold step
  rw [pay2_apply]
  refine congrArg (max (s (ix2 p q))) ?_
  unfold blockMax
  refine Finset.fold_congr ?_
  intro r _
  have hr := r.isLt
  have hb := redB_lt t
  have hk : 128 * redB t + r.val < 1024 := by omega
  rw [xblk_apply, wblk_apply]
  unfold term
  rw [dif_pos hk]
  rfl

/-- The induction on the reduction block, over a fixed row block R and column block C: the point before a point that
    is not at a first reduction block has the same row and column blocks and the reduction block before. -/
private theorem accAt_entry_aux (c : Dev nD) (p q : Fin 128) (R C : ℕ) (hR : R < 4) (hC : C < 4) :
    ∀ (r : ℕ) (t : Fin cfg1.N), redB t = r → rowB t = R → colB t = C →
      (accAt (F := Ideal) V c t.val t.isLt) (ix2 p q)
        = runMax startW 128 (term V c (at128 512 R hR rfl p) (at128 512 C hC rfl q)) r := by
  intro r
  induction r with
  | zero =>
    intro t hr hRt hCt
    have hP : at128 512 (rowB t) (rowB_lt t) rfl p = at128 512 R hR rfl p := by subst hRt; rfl
    have hQ : at128 512 (colB t) (colB_lt t) rfl q = at128 512 C hC rfl q := by subst hCt; rfl
    rw [accAt_first V c t hr, step_entry, pay1_apply, hP, hQ, hr]
    rfl
  | succ r ih =>
    intro t hr hRt hCt
    have hP : at128 512 (rowB t) (rowB_lt t) rfl p = at128 512 R hR rfl p := by subst hRt; rfl
    have hQ : at128 512 (colB t) (colB_lt t) rfl q = at128 512 C hC rfl q := by subst hCt; rfl
    have hlt := t.isLt
    have hN : cfg1.N = 128 := N_1
    have hr' := hr
    have hR' := hRt
    have hC' := hCt
    unfold redB at hr'
    unfold rowB at hR'
    unfold colB at hC'
    have ht' : t.val - 1 < cfg1.N := by omega
    have e1 : redB (⟨t.val - 1, ht'⟩ : Fin cfg1.N) = r := by unfold redB; dsimp only; omega
    have e2 : rowB (⟨t.val - 1, ht'⟩ : Fin cfg1.N) = R := by unfold rowB; dsimp only; omega
    have e3 : colB (⟨t.val - 1, ht'⟩ : Fin cfg1.N) = C := by unfold colB; dsimp only; omega
    have hprev := ih ⟨t.val - 1, ht'⟩ e1 e2 e3
    rw [accAt_next V c t (by omega), step_entry, hP, hQ, hr]
    rw [show (accAt (F := Ideal) V c (t.val - 1) (Nat.lt_of_le_of_lt (Nat.sub_le _ _) t.isLt)) (ix2 p q)
          = runMax startW 128 (term V c (at128 512 R hR rfl p) (at128 512 C hC rfl q)) r from hprev]
    rfl

/-- The accumulator's entry (p, q) after point t is the running maximum of its row pair's terms at stage t % 8. -/
theorem accAt_entry (c : Dev nD) (t : Fin cfg1.N) (p q : Fin 128) :
    (accAt (F := Ideal) V c t.val t.isLt) (ix2 p q)
      = runMax startW 128 (term V c (at128 512 (rowB t) (rowB_lt t) rfl p) (at128 512 (colB t) (colB_lt t) rfl q)) (redB t) := by
  exact accAt_entry_aux V c p q (rowB t) (colB t) (rowB_lt t) (colB_lt t) (redB t) t rfl rfl rfl

end Cert.KernelIdeal.L1

end
-- ==== Proof.KernelIdeal.L1Value.lean ====
/-
  What the second region leaves in its output array: the second layer of its two input arrays.

  The output block is written back exactly at the points with t % 8 = 7, and by then the accumulator's entry is the
  running maximum over all eight blocks, that is, over all 1024 terms of its row pair (`runMax_eq`); the stored block is
  that, clamped below. Row P and column Q of the result lie in the block of the one point with row-block P / 128,
  column-block Q / 128 and reduction block 7, so the blocks written back cover the array and agree with the layer.
-/
import proofs.«119052_j32392643346992_1_alg».proof.Proof.KernelIdeal.L1Fold

set_option maxRecDepth 16384

noncomputable section

namespace Cert.KernelIdeal.L1

open Cert.KernelIdeal Cert.KernelIdeal.Gen Cert.MaxPlus
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The output array after the region's last point, at its literal type. -/
abbrev outArr (c : Dev nD) : S512x512.Idx → EReal := (dat (F := Ideal) V c).arrAt 2 cfg1.N

/-- The output window's block indices at point t, decided once over the grid. -/
private theorem oidx : ∀ t : Fin cfg1.N, win1_2.index t (0 : Fin 2) = t.val / 32 ∧ win1_2.index t (1 : Fin 2) = t.val / 8 % 4 :=
  (by decide +kernel : ∀ t : Fin grid1.N, win1_2.index t (0 : Fin 2) = t.val / 32 ∧ win1_2.index t (1 : Fin 2) = t.val / 8 % 4)

/-- Entry (p, q) of the output block at point t sits in the result at row p of the point's row-block and column q of
    its column-block. -/
private theorem oblk_emb (t : Fin cfg1.N) (p q : Fin 128) :
    (((cfg1.win 2).blk t).view.emb (ix2 p q) : S512x512.Idx)
      = ix2 (at128 512 (rowB t) (rowB_lt t) rfl p) (at128 512 (colB t) (colB_lt t) rfl q) := by
  obtain ⟨e0, e1⟩ := oidx t
  funext a
  apply Fin.ext
  match a with
  | ⟨0, _⟩ =>
    show win1_2.index t (0 : Fin 2) * 128 + 1 * p.val = 128 * rowB t + p.val
    unfold rowB; omega
  | ⟨1, _⟩ =>
    show win1_2.index t (1 : Fin 2) * 128 + 1 * q.val = 128 * colB t + q.val
    unfold colB; omega

/-- With every block taken in, the running maximum of a row pair is the maximum of all its terms, which is the layer's
    fold over the shared axis. -/
private theorem runMax_last (c : Dev nD) (P : Fin 512) (Q : Fin 512) :
    runMax startW 128 (term V c P Q) 7
      = (Finset.univ : Finset (Fin 1024)).fold max startW (fun k => xArr V c (ix2 P k) + wArr V c (ix2 Q k)) := by
  rw [runMax_eq]
  show (Finset.univ : Finset (Fin 1024)).fold max startW (fun k => term V c P Q k.val) = _
  refine Finset.fold_congr fun k _ => ?_
  unfold term
  rw [dif_pos k.isLt]

/-- What a point at the last reduction block writes back, at entry (p, q): the layer's entry at that entry's row and
    column of the result. -/
private theorem flushed_entry (c : Dev nD) (t : Fin cfg1.N) (h3 : redB t = 7) (p q : Fin 128) :
    k1_pay3 (F := Ideal) (accAt (F := Ideal) V c t.val t.isLt) (ix2 p q)
      = layer startW zeroW (xArr V c) (wArr V c)
          (ix2 (at128 512 (rowB t) (rowB_lt t) rfl p) (at128 512 (colB t) (colB_lt t) rfl q)) := by
  rw [pay3_apply, accAt_entry, h3, runMax_last, layer_apply]
  rfl

/-- What a flushing point writes back is its block of the layer. -/
private theorem flushed_eq (c : Dev nD) (t : Fin cfg1.N) (hf : (cfg1.win 2).flush t = true) :
    (dat (F := Ideal) V c).flushed 2 t
      = ((cfg1.win 2).blk t).view.read (Elt Ideal) (layer startW zeroW (xArr V c) (wArr V c)) := by
  have h3 : redB t = 7 := (flush1_2 t).mp hf
  show (cfg1.win 2).cut (grid1.coords t) ((dat (F := Ideal) V c).after 2 t) = _
  rw [after_out]
  funext j
  obtain ⟨p, q, rfl⟩ : ∃ (p q : Fin 128), j = ix2 p q := ⟨j 0, j 1, eq_ix2 j⟩
  rw [View.read_apply]
  show k1_pay3 (F := Ideal) (accAt (F := Ideal) V c t.val t.isLt) (ix2 p q)
    = layer startW zeroW (xArr V c) (wArr V c) (((cfg1.win 2).blk t).view.emb (ix2 p q))
  rw [oblk_emb, flushed_entry V c t h3]

/-- Row P, column Q of the result lies in the block of the point with row-block P / 128, column-block Q / 128 and the
    last reduction block, and that point writes its block back. -/
private theorem cover (i : S512x512.Idx) :
    ∃ t : Fin cfg1.N, (cfg1.win 2).flush t = true ∧ i ∈ ((cfg1.win 2).blk t).view.set := by
  have hP : (i 0).val < 512 := (i 0).isLt
  have hQ : (i 1).val < 512 := (i 1).isLt
  have hN : cfg1.N = 128 := N_1
  let t : Fin cfg1.N := ⟨32 * ((i 0).val / 128) + 8 * ((i 1).val / 128) + 7, by omega⟩
  have ht : t.val = 32 * ((i 0).val / 128) + 8 * ((i 1).val / 128) + 7 := rfl
  obtain ⟨e0, e1⟩ := oidx t
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 128 ≤ (i 1).val ∧ (i 1).val < win1_2.index t (1 : Fin 2) * 128 + 128
    omega

/-- After the region the output array holds the layer of the arrays the region was entered with. -/
theorem arr_out (c : Dev nD) : outArr V c = layer startW zeroW (xArr V c) (wArr V c) :=
  (dat (F := Ideal) V c).arrAt_eq_of_cover 2 (layer startW zeroW (xArr V c) (wArr V c))
    (fun t hf => flushed_eq V c t hf) cover

end Cert.KernelIdeal.L1

end
-- ==== Proof.KernelIdeal.RunValue.lean ====
/-
  What the idealized kernel program leaves in its result array: the second layer of the first layer of its arguments.

  The program is the two regions in sequence. Read against a final state, the last boundary's contents give each
  argument as launched and the result array at what the second region's write-backs leave. That is the second
  layer of the arrays the second region was entered with: the intermediate array, which the first region left at
  the first layer of x and w1, and w2, which nothing has touched.
-/
import proofs.«119052_j32392643346992_1_alg».proof.Proof.KernelIdeal.Regions
import proofs.«119052_j32392643346992_1_alg».proof.Proof.KernelIdeal.L0Value
import proofs.«119052_j32392643346992_1_alg».proof.Proof.KernelIdeal.L1Value

set_option maxRecDepth 16384

noncomputable section

namespace Cert.KernelIdeal.Seq

open Cert.KernelIdeal Cert.KernelIdeal.Gen Cert.MaxPlus
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the second region leaves is the last boundary's buffers and the generator register, beside the core owing nothing. -/
theorem last_state (c : Dev nD) :
    (reg1 m).post c ⊢ (iprop((StableHlo.held (c : Thread nD τ) (Pipeline.ucRefs τ sig) (afterL1 m c) ∗ ∃ r, prngReg c r)
      ∗ ∃ W, owes (c : Thread nD τ) (0 : CellTallies nD τ sig Unit) W) : sProp 𝕄) := by
  show iprop(StableHlo.held (c : Thread nD τ) (Pipeline.ucRefs τ sig) (afterL1 m c) ∗ beside c) ⊢ _
  iintro ⟨Hh, Hgen, Hdue⟩
  isplitl [Hh Hgen]
  · isplitl [Hh]; · iexact Hh
    iexact Hgen
  iexact Hdue

set_option backward.isDefEq.respectTransparency.types false in
/-- Every weakly fair execution of the program terminates, nothing faulting, with the result array at the last
    boundary's contents and the three arguments as launched. -/
theorem run_named (ρ : Dev nD → PrngReg) :
    θ_run defs (onTc (τ := τ) (main (F := F))) ⟨m, fun _ => 0, ρ⟩ (fun r => ∀ c : Dev nD,
      r.2.mem ((c.tc : Thread nD τ).loc main_v1) = afterL1 m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ noVariants noPairs noLevel m ρ main
    (Gen.segs noVariants noPairs noLevel (fun _ c => beside c) () (pdats m) (reg0 m) (reg1 m))
    (fun c Q => by
      rewrite [main_chain c, Seg.run_eq_chain,
        show (Gen.segs noVariants noPairs noLevel (fun _ c => beside c) () (pdats m) (reg0 m) (reg1 m) c).map Seg.prog = [
          Prog.lift (.customCall (Pipeline.entry 0) ()),
          Prog.lift (.customCall (Pipeline.entry 1) ()) ] from rfl]
      exact .rfl)
    (fun c => by simp only [Gen.segs, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj)) (hu₀ := ?_)
    (T₀ := fun c => iprop(StableHlo.held (c : Thread nD τ) (Pipeline.ucRefs τ sig) (Gen.V0 m c) ∗ beside c))
    (Tₙ := fun c => iprop(StableHlo.held (c : Thread nD τ) (Pipeline.ucRefs τ sig) (afterL1 m c) ∗ ∃ r, prngReg c r))
    (hch := fun c => ⟨.rfl, .rfl, last_state m c⟩)
    (hinit := ?_)
    (QY := fun c s => s.mem ((c.tc : Thread nD τ).loc main_v1) = afterL1 m c main_v1
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch element is the pipelines' own; no further ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- at launch every unscoped buffer is held at the launch contents; the generator register and no dues beside
    refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, Hdue, -, Hgen, -⟩, -⟩
    imodintro
    isplitl [Hh]; · iexact Hh
    isplitl [Hgen]; · iexists _; iexact Hgen
    iexists ∅; iexact Hdue
  · -- the end: each buffer read off the last boundary's contents
    unfold StableHlo.held
    iintro ⟨⟨Hh, -⟩, HSI⟩
    ihave Hr := (pointsTo_read_all (Pipeline.ucRefs τ sig) (fun b => ((c : Thread nD τ).1, b)) (afterL1 m c) s') $$ [Hh HSI]
    · isplitl [Hh] <;> iassumption
    icases Hr with ⟨%h, HSI⟩
    imodintro
    isplitr
    · ipureintro
      have hmem : ∀ b : Ref sig .tc, ¬ (Proc.devRef .tc b : DevRef τ sig).isScoped → Proc.devRef .tc b ∈ Pipeline.ucRefs τ sig :=
        fun b hb => Finset.mem_filter.mpr ⟨StableHlo.devRef_mem_tcRefs b, hb⟩
      refine ⟨h _ (hmem main_v1 (by decide)), (h _ (hmem main_arg0 (by decide))).trans ?_,
        (h _ (hmem main_arg1 (by decide))).trans ?_, (h _ (hmem main_arg2 (by decide))).trans ?_⟩
      · exact (congrFun (V2_eq m c) _).symm.trans (Gen.V2_main_arg0 m (leftBy m) c)
      · exact (congrFun (V2_eq m c) _).symm.trans (Gen.V2_main_arg1 m (leftBy m) c)
      · exact (congrFun (V2_eq m c) _).symm.trans (Gen.V2_main_arg2 m (leftBy m) c)
    · iexact HSI

end Cert.KernelIdeal.Seq

/-! ## At the extended reals: the result is the two layers -/

namespace Cert.KernelIdeal.Seq

open Cert.KernelIdeal Cert.KernelIdeal.Gen Cert.MaxPlus
open Idealize.ShloMosaic Idealize.ShloMosaic.TcCoe Idealize.SL.Sem

variable (m : (ℓ : Loc nD τ sig) → Buf (Elt Ideal) ℓ)

/-- The last boundary's result array is the second layer of the first layer of the launch arrays. -/
theorem result_layers (c : Dev nD) :
    (afterL1 m c main_v1 : S512x512.Idx → EReal)
      = layer startW zeroW
          (layer startW zeroW (m ((c.tc : Thread nD τ).loc main_arg0) : S512x512.Idx → EReal)
            (m ((c.tc : Thread nD τ).loc main_arg1) : S1024x512.Idx → EReal))
          (m ((c.tc : Thread nD τ).loc main_arg2) : S512x1024.Idx → EReal) := by
  have h1 : (afterL1 m c main_v1 : S512x512.Idx → EReal) = L1.outArr (atL0 m) c :=
    Function.update_self (f := afterL0 m c) (Proc.devRef .tc main_v1 : DevRef τ sig) _
  have hx : L1.xArr (atL0 m) c = L0.outArr (atLaunch m) c :=
    Function.update_self (f := Gen.V0 m c) (Proc.devRef .tc main_v0 : DevRef τ sig) _
  have hw : L1.wArr (atL0 m) c = (m ((c.tc : Thread nD τ).loc main_arg2) : S512x1024.Idx → EReal) :=
    Function.update_of_ne (StableHlo.devRef_ne_of_ne (by decide) : (Proc.devRef .tc main_arg2 : DevRef τ sig) ≠ Proc.devRef .tc main_v0) _ _
  rw [h1, L1.arr_out (atL0 m) c, hx, hw, L0.arr_out (atLaunch m) c]

/-- Every weakly fair execution of the idealized kernel program ends with its result at the two layers of its
    arguments, the arguments unchanged. -/
theorem run_layers (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = layer startW zeroW (layer startW zeroW (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c).1.trans (result_layers m c), (h c).2⟩) (run_named (F := Ideal) m ρ)

end Cert.KernelIdeal.Seq

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.LibTypedRefSame.lean ====
/-
  Typed references taken at their buffer's own type: the transport is along a reflexive equation.
-/
import Idealize.ShloMosaic.Lib.StableHlo

namespace Cert.LibTypedRefSame

open Idealize.ShloMosaic Idealize.ShloMosaic.StableHlo

variable {sig : RefSig} {Val : EltTy → Type}

/-- A typed reference whose value type is its buffer's own type moves contents into the buffer along a reflexive
    equation of types, that is, nowhere. Stated at `T := r.ty` so that it holds by definition; at a use site where the
    value type is a literal that only UNFOLDS to `r.ty`, rewrite with it by `erw`, which may unfold the buffer's type
    (`rw` and `simp` compare the two types without unfolding and find no instance). Any signature, value types and
    reference. -/
theorem toBuf_same (r : Ref sig .tc) (h : r.ty = r.ty) (hd : r.space ≠ .host) (hu : r.isScoped = false)
    (v : r.ty.Contents Val) : (TRef.of (T := r.ty) r h hd hu).toBuf v = v := rfl

/-- And out of the buffer likewise. -/
theorem ofBuf_same (r : Ref sig .tc) (h : r.ty = r.ty) (hd : r.space ≠ .host) (hu : r.isScoped = false)
    (v : r.ty.Contents Val) : (TRef.of (T := r.ty) r h hd hu).ofBuf v = v := rfl

end Cert.LibTypedRefSame
-- ==== Proof.Reference.lean ====
/-
  The reference computes the two layers one after the other, each as the specification spells it: broadcast both
  operands to [B, J, K], add, take the maximum over the last axis from the start value, clamp below.
-/
import proofs.«119052_j32392643346992_1_alg».proof.Proof.ReferenceRun
import proofs.«119052_j32392643346992_1_alg».proof.Proof.ReferenceRead
import proofs.«119052_j32392643346992_1_alg».proof.Proof.MaxPlus
import Idealize.ShloMosaic.PureOps.Ideal.Laws

noncomputable section

namespace Cert.ReferenceIdeal.RefValue

open Idealize.ShloMosaic Idealize.ShloMosaic.TcCoe Idealize.SL.Sem
open Cert.ReferenceIdeal Cert.MaxPlus

section OneLayer

open Idealize.ShloMosaic.ValueIdx

/-- A maximum taken over the last of three axes, read at (p, q): the fold of `max` from the initial value's one
    element over the last coordinate k, the operand read at (p, q, k). The indices that drop to (p, q) are exactly
    those, and `max` on the extended reals commutes and associates, so their order is immaterial. -/
private theorem reduce_last_apply {B J K : ℕ} (y : FVec Ideal ⟨3, ![B, J, K]⟩ .f32) (init : FVec Ideal ⟨0, ![]⟩ .f32)
    (h' : (⟨3, ![B, J, K]⟩ : Shape).ReducesTo [2] ⟨2, ![B, J]⟩) (hu : 0 < (⟨0, ![]⟩ : Shape).numel) (p : Fin B) (q : Fin J) :
    Host.reduce FloatOps.maximumf y init h' hu (ix2 p q)
      = (Finset.univ : Finset (Fin K)).fold max (init ix0) (fun k => y (ix3 p q k)) := by
  have h : (⟨3, ![B, J, K]⟩ : Shape).Reduces [2] ⟨2, ![B, J]⟩ := ⟨h'.1, Nat.succ_pos 1, h'.2⟩
  rw [Host.reduce_eq_fold_single FloatOps.maximumf y init h' h hu (ix2 p q)]
  have hi : init (Shape.Idx.first hu) = init ix0 := congrArg init (funext fun a => a.elim0)
  have hy : y ∘ h.lift (ix2 p q) = fun k => y (ix3 p q k) :=
    funext fun k => congrArg y (funext fun c => Fin.ext (by
      match c with
      | ⟨0, _⟩ => rfl
      | ⟨1, _⟩ => rfl
      | ⟨2, _⟩ => rfl))
  rw [hi, hy]
  rfl

/-- One layer as the reference spells it. X and W are the two operands laid out over [B, J, K] (X constant along
    the second axis, W along the first); their sum is maximised over the last axis from the start value and the
    result is clamped below by an array that is the clamp value everywhere. That is the layer of x and w. -/
private theorem stage_eq_layer {B J K : ℕ} (x : (⟨2, ![B, K]⟩ : Shape).Idx → EReal) (w : (⟨2, ![J, K]⟩ : Shape).Idx → EReal)
    (X W : FVec Ideal ⟨3, ![B, J, K]⟩ .f32) (c0 : FVec Ideal ⟨0, ![]⟩ .f32) (Z : FVec Ideal ⟨2, ![B, J]⟩ .f32)
    (h' : (⟨3, ![B, J, K]⟩ : Shape).ReducesTo [2] ⟨2, ![B, J]⟩) (hu : 0 < (⟨0, ![]⟩ : Shape).numel)
    (hX : ∀ p q k, X (ix3 p q k) = x (ix2 p k)) (hW : ∀ p q k, W (ix3 p q k) = w (ix2 q k))
    (hc0 : c0 ix0 = startW) (hZ : ∀ i, Z i = zeroW) :
    maximumf (Host.reduce FloatOps.maximumf (addf X W) c0 h' hu) Z = layer startW zeroW x w := by
  funext i
  obtain ⟨p, q, rfl⟩ : ∃ p q, i = ix2 p q := ⟨i 0, i 1, eq_ix2 i⟩
  rw [layer_apply, maximumf_apply, hZ, reduce_last_apply, hc0]
  unfold entry
  refine congrArg (fun g => max ((Finset.univ : Finset (Fin K)).fold max startW g) zeroW) (funext fun k => ?_)
  rw [addf_apply, hX, hW]

end OneLayer

/-- The reference's result as a function of its three arguments is the second layer of the first layer. -/
theorem result_eq (x0 : (⟨S512x512, .f32⟩ : BufTy).Contents (Elt Ideal)) (x1 : (⟨S1024x512, .f32⟩ : BufTy).Contents (Elt Ideal))
    (x2 : (⟨S512x1024, .f32⟩ : BufTy).Contents (Elt Ideal)) :
    Cert.ReferenceIdeal.ReadP.val_main_v13 (F := Ideal) x0 x1 x2 = layer startW zeroW (layer startW zeroW x0 x1) x2 := by
  -- the first layer: the stage that the second one reads
  have h1 : ReadP.val_main_v6 (F := Ideal) x0 x1 = layer startW zeroW x0 x1 := by
    unfold ReadP.val_main_v6 ReadP.val_main_v5 ReadP.val_main_v4
    exact stage_eq_layer (B := 512) (J := 1024) (K := 512) x0 x1 _ _ _ _ _ _
      (fun p q k => by
        rw [ReadP.val_main_v2_apply, ReadP.val_main_v0_apply]
        exact congrArg x0 (funext fun a => Fin.ext (by match a with | ⟨0, _⟩ => rfl | ⟨1, _⟩ => rfl)))
      (fun p q k => by
        rw [ReadP.val_main_v3_apply, ReadP.val_main_v1_apply]
        exact congrArg x1 (funext fun a => Fin.ext (by match a with | ⟨0, _⟩ => rfl | ⟨1, _⟩ => rfl)))
      rfl
      (fun i => by rw [ReadP.val_main_call0_v0_apply, ReadP.val_main_call0_cst_apply]; rfl)
  -- the second layer, over the first stage's result whatever it is
  have h2 : ReadP.val_main_v13 (F := Ideal) x0 x1 x2 = layer startW zeroW (ReadP.val_main_v6 (F := Ideal) x0 x1) x2 := by
    unfold ReadP.val_main_v13 ReadP.val_main_v12 ReadP.val_main_v11
    exact stage_eq_layer (B := 512) (J := 512) (K := 1024) (ReadP.val_main_v6 (F := Ideal) x0 x1) x2 _ _ _ _ _ _
      (fun p q k => by
        rw [ReadP.val_main_v9_apply, ReadP.val_main_v7_apply]
        exact congrArg (ReadP.val_main_v6 (F := Ideal) x0 x1)
          (funext fun a => Fin.ext (by match a with | ⟨0, _⟩ => rfl | ⟨1, _⟩ => rfl)))
      (fun p q k => by
        rw [ReadP.val_main_v10_apply, ReadP.val_main_v8_apply]
        exact congrArg x2 (funext fun a => Fin.ext (by match a with | ⟨0, _⟩ => rfl | ⟨1, _⟩ => rfl)))
      rfl
      (fun i => by rw [ReadP.val_main_call1_v0_apply, ReadP.val_main_call1_cst_apply]; rfl)
  rw [h2, h1]

/-- Every weakly fair execution of the reference ends with its result at the two layers of its arguments, the
    arguments unchanged. -/
theorem run_layers (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = layer startW zeroW (layer startW zeroW (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((ReadP.val_main_v13_eq _ _ _).trans (result_eq _ _ _)), (h c).2⟩)
    (Cert.ReferenceIdeal.ValueP.run (F := Ideal) m ρ)

end Cert.ReferenceIdeal.RefValue

end
-- ==== Proof.lean ====
/- The two-layer max-plus network: out = relu(maxplus(relu(maxplus(x, W1)), W2)), where maxplus(a, W)[b, j] is the
   largest of a[b, k] + W[j, k] over k, taken from the start value, and relu clamps below by zero.

   The kernel program runs each layer as one grid of 128 x 128 blocks with a running maximum kept in a scratch
   accumulator: reset at the first reduction block, folded at every block, clamped and written out at the last. The
   reference broadcasts both operands to [B, J, K], adds, reduces the last axis by max from the same start value and
   clamps. Over the extended reals max is associative, commutative and idempotent, so folding a block at a time gives
   the same maximum as folding all terms at once: both programs end at the same function of their arguments,
   `layer (layer x W1) W2` (Proof/MaxPlus.lean), and no finiteness of the inputs is used.

   Frames: each kernel program is its two regions in sequence (Proof/Kernel/Regions.lean at the bit level,
   Proof/KernelIdeal/Regions.lean at the extended reals); the reference's frame is its run with the result dropped.
   The idealization rewrote no operation, so there is nothing to preserve. -/
import proofs.«119052_j32392643346992_1_alg».proof.Defs
import proofs.«119052_j32392643346992_1_alg».proof.Proof.Gen.Kernel
import proofs.«119052_j32392643346992_1_alg».proof.Proof.Gen.KernelIdeal
import proofs.«119052_j32392643346992_1_alg».proof.Proof.Gen.ReferenceIdeal
import proofs.«119052_j32392643346992_1_alg».proof.Proof.Gen.Pre_finite_inputs
import proofs.«119052_j32392643346992_1_alg».proof.Proof.Kernel.Regions
import proofs.«119052_j32392643346992_1_alg».proof.Proof.KernelIdeal.RunValue
import proofs.«119052_j32392643346992_1_alg».proof.Proof.Reference
import Idealize.ShloMosaic.Adequacy
import Idealize.ShloMosaic.Init

noncomputable section

namespace Cert.Proof

open Idealize.ShloMosaic Idealize.ShloMosaic.TcCoe Idealize.SL.Sem Cert.MaxPlus

/-- The bit-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Seq.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Seq.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both idealized programs end with the result at the two layers of the
    arguments: the kernel's running maximum block by block, the reference's maximum over the whole axis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Seq.run_layers m ρ, ?_⟩
  refine (θ_run Cert.ReferenceIdeal.defs _ _).mono (fun _ h c => ⟨(h c).1.trans ?_, (h c).2⟩)
    (Cert.ReferenceIdeal.RefValue.run_layers m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
